-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S128 : Shape := ⟨1, ![128]⟩
abbrev S64x64 : Shape := ⟨2, ![64, 64]⟩
abbrev S64x512 : Shape := ⟨2, ![64, 512]⟩
abbrev S64 : Shape := ⟨1, ![64]⟩
abbrev S1x64 : Shape := ⟨2, ![1, 64]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_arg5 : FVec F S1x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_c_8 : IVec S_ 32 := constantI S_ 32 512#32
  let main_v24 : IVec S128 32 := broadcastInDim S128 ![] bcast_S_S128 main_c_8
  let main_v25 : IVec S128 1 := cmpi .sle main_arg1 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  main_v27

def fn {F : FTy → Type} [FloatOps F] (main_arg0 : FVec F S128x512x512 .f32) (main_arg1 : IVec S128 32) (main_arg2 : FVec F S64x64 .f32) (main_arg3 : FVec F S64x512 .f32) (main_arg4 : FVec F S64 .f32) (main_arg5 : FVec F S1x64 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_v13 main_v16
-- ==== Kernel.lean ====
abbrev S128x512x512 : Shape := ⟨3, ![128, 512, 512]⟩
abbrev S128 : Shape := ⟨1, ![128]⟩
abbrev S64x64 : Shape := ⟨2, ![64, 64]⟩
abbrev S64x512 : Shape := ⟨2, ![64, 512]⟩
abbrev S64 : Shape := ⟨1, ![64]⟩
abbrev S1x64 : Shape := ⟨2, ![1, 64]⟩
abbrev S_ : Shape := ⟨0, ![]⟩
abbrev S1 : Shape := ⟨1, ![1]⟩
abbrev S1x1 : Shape := ⟨2, ![1, 1]⟩
abbrev S64x1 : Shape := ⟨2, ![64, 1]⟩
abbrev S1x512 : Shape := ⟨2, ![1, 512]⟩
abbrev S512 : Shape := ⟨1, ![512]⟩
abbrev S128x1 : Shape := ⟨2, ![128, 1]⟩
abbrev S128x512 : Shape := ⟨2, ![128, 512]⟩
abbrev S1x1x512 : Shape := ⟨3, ![1, 1, 512]⟩
abbrev S32x128 : Shape := ⟨2, ![32, 128]⟩
abbrev S32x256x512 : Shape := ⟨3, ![32, 256, 512]⟩
abbrev S32x256 : Shape := ⟨2, ![32, 256]⟩
abbrev S8x128 : Shape := ⟨2, ![8, 128]⟩
abbrev S32x32x512 : Shape := ⟨3, ![32, 32, 512]⟩
abbrev S32x32 : Shape := ⟨2, ![32, 32]⟩
abbrev S32 : Shape := ⟨1, ![32]⟩
abbrev S32x1 : Shape := ⟨2, ![32, 1]⟩

abbrev nBuf : Space → Nat
  | .hbm => 152
  | .vmem => 7
  | .smem => 0
  | _ => 0

abbrev hbmTy0_0 (i : Nat) : BufTy := match i % 128 with
  | 0 => ⟨S128x512x512, .f32⟩
  | 1 => ⟨S128, .i32⟩
  | 2 => ⟨S64x64, .f32⟩
  | 3 => ⟨S64x512, .f32⟩
  | 4 => ⟨S64, .f32⟩
  | 5 => ⟨S1x64, .f32⟩
  | 6 => ⟨S_, .f32⟩
  | 7 => ⟨S1, .f32⟩
  | 8 => ⟨S_, .f32⟩
  | 9 => ⟨S1, .f32⟩
  | 10 => ⟨S1, .f32⟩
  | 11 => ⟨S1x1, .f32⟩
  | 12 => ⟨S1x64, .f32⟩
  | 13 => ⟨S1x64, .f32⟩
  | 14 => ⟨S1x64, .f32⟩
  | 15 => ⟨S_, .f32⟩
  | 16 => ⟨S1, .f32⟩
  | 17 => ⟨S1x1, .f32⟩
  | 18 => ⟨S1x64, .f32⟩
  | 19 => ⟨S1x64, .f32⟩
  | 20 => ⟨S_, .f32⟩
  | 21 => ⟨S_, .f32⟩
  | 22 => ⟨S_, .f32⟩
  | 23 => ⟨S_, .f32⟩
  | 24 => ⟨S1, .f32⟩
  | 25 => ⟨S64, .f32⟩
  | 26 => ⟨S64, .f32⟩
  | 27 => ⟨S64, .f32⟩
  | 28 => ⟨S_, .f32⟩
  | 29 => ⟨S_, .f32⟩
  | 30 => ⟨S1, .f32⟩
  | 31 => ⟨S64, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S_, .f32⟩
  | 45 => ⟨S1, .f32⟩
  | 46 => ⟨S_, .f32⟩
  | 47 => ⟨S64, .f32⟩
  | 48 => ⟨S_, .f32⟩
  | 49 => ⟨S64, .f32⟩
  | 50 => ⟨S64, .f32⟩
  | 51 => ⟨S64x1, .f32⟩
  | 52 => ⟨S64x64, .f32⟩
  | 53 => ⟨S64x64, .f32⟩
  | 54 => ⟨S64x64, .f32⟩
  | 55 => ⟨S_, .f32⟩
  | 56 => ⟨S64, .f32⟩
  | 57 => ⟨S64x1, .f32⟩
  | 58 => ⟨S64x64, .f32⟩
  | 59 => ⟨S64x64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S_, .f32⟩
  | 66 => ⟨S1, .f32⟩
  | 67 => ⟨S_, .f32⟩
  | 68 => ⟨S1, .f32⟩
  | 69 => ⟨S1, .f32⟩
  | 70 => ⟨S1x1, .f32⟩
  | 71 => ⟨S1x64, .f32⟩
  | 72 => ⟨S1x64, .f32⟩
  | 73 => ⟨S1x64, .f32⟩
  | 74 => ⟨S_, .f32⟩
  | 75 => ⟨S1, .f32⟩
  | 76 => ⟨S1x1, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S_, .f32⟩
  | 90 => ⟨S1, .f32⟩
  | 91 => ⟨S_, .f32⟩
  | 92 => ⟨S_, .f32⟩
  | 93 => ⟨S128, .f32⟩
  | 94 => ⟨S_, .i32⟩
  | 95 => ⟨S128, .i32⟩
  | 96 => ⟨S128, .i1⟩
  | 97 => ⟨S128, .f32⟩
  | 98 => ⟨S_, .f32⟩
  | 99 => ⟨S_, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S_, .f32⟩
  | 107 => ⟨S_, .f32⟩
  | 108 => ⟨S_, .f32⟩
  | 109 => ⟨S_, .f32⟩
  | 110 => ⟨S_, .f32⟩
  | 111 => ⟨S64x512, .f32⟩
  | 112 => ⟨S64x512, .f32⟩
  | 113 => ⟨S_, .f32⟩
  | 114 => ⟨S64x512, .f32⟩
  | 115 => ⟨S64x512, .f32⟩
  | 116 => ⟨S_, .f32⟩
  | 117 => ⟨S64x512, .f32⟩
  | 118 => ⟨S64x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S128x512x512, .f32⟩

abbrev hbmTy0_1 (i : Nat) : BufTy := match i % 128 with
  | 0 => ⟨S1x512, .f32⟩
  | 1 => ⟨S1x512, .f32⟩
  | 2 => ⟨S1x512, .f32⟩
  | 3 => ⟨S1x512, .f32⟩
  | 4 => ⟨S512, .f32⟩
  | 5 => ⟨S_, .f32⟩
  | 6 => ⟨S_, .f32⟩
  | 7 => ⟨S512, .i32⟩
  | 8 => ⟨S1x512, .i32⟩
  | 9 => ⟨S128x1, .i32⟩
  | 10 => ⟨S128x512, .i32⟩
  | 11 => ⟨S128x512, .i32⟩
  | 12 => ⟨S128x512, .i1⟩
  | 13 => ⟨S128x512, .f32⟩
  | 14 => ⟨S_, .f32⟩
  | 15 => ⟨S_, .f32⟩
  | 16 => ⟨S1x1x512, .f32⟩
  | 17 => ⟨S32x128, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | .local _ .vmem, ⟨0, _⟩ => ⟨S32x256x512, .f32⟩
  | .local _ .vmem, ⟨1, _⟩ => ⟨S32x256x512, .f32⟩
  | .local _ .vmem, ⟨2, _⟩ => ⟨S32x256, .f32⟩
  | .local _ .vmem, ⟨3, _⟩ => ⟨S32x256, .f32⟩
  | .local _ .vmem, ⟨4, _⟩ => ⟨S1x1x512, .f32⟩
  | .local _ .vmem, ⟨5, _⟩ => ⟨S8x128, .f32⟩
  | .local _ .vmem, ⟨6, _⟩ => ⟨S8x128, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_cst_19 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_cst_21 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_24 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_cst_26 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_27 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_28 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_29 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_3 : BitVec 32 := 0#32
  let c8_i32 : BitVec 32 := 8#32
  let v6 : BitVec 32 := Scalar.addi c0_i32_3 c8_i32
  let c1_i32 : BitVec 32 := 1#32
  ⟨c0_i32_3, v6, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c32_i32 : BitVec 32 := 32#32
  let v24 : BitVec 32 := Scalar.muli arg6 c32_i32
  v24
def k0_off1 (k0_t1 : Fin k0_t1_loop.trips) : Fin 3 → Nat :=
  let c0_11 : Index := 0#32
  let c0_i32_3 : BitVec 32 := 0#32
  let c1_i32 : BitVec 32 := 1#32
  let arg6 : BitVec 32 := Scf.iv c0_i32_3 c1_i32 k0_t1
  let c32_i32 : BitVec 32 := 32#32
  let v24 : BitVec 32 := Scalar.muli arg6 c32_i32
  let v25 : BitVec 32 := v24
  let v26 : Index := Scalar.indexCast v25
  let c0_12 : Index := 0#32
  ![0, v26.toNat, 0]
def k0_off2 (k0_t1 : Fin k0_t1_loop.trips) : Fin 2 → Nat :=
  let c0_13 : Index := 0#32
  let c0_i32_3 : BitVec 32 := 0#32
  let c1_i32 : BitVec 32 := 1#32
  let arg6 : BitVec 32 := Scf.iv c0_i32_3 c1_i32 k0_t1
  let c32_i32 : BitVec 32 := 32#32
  let v24 : BitVec 32 := Scalar.muli arg6 c32_i32
  let v25 : BitVec 32 := v24
  let v28 : Index := Scalar.indexCast v25
  ![0, v28.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1x64_S1_d1 : S1x64.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  reducesTo_S64_S_d0 : S64.ReducesTo [0] S_
  bcast_S1_S64_0 : S1.BroadcastsInDim S64 (![0] : Fin 1 → Fin S64.rank)
  bcast_S64_S1x64_1 : S64.BroadcastsInDim S1x64 (![1] : Fin 1 → Fin S1x64.rank)
  bcast_S_S1x64 : S_.BroadcastsInDim S1x64 (![] : Fin 0 → Fin S1x64.rank)
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S1_S_ : S1.ShapeCasts S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  bcast_S_S1x512 : S_.BroadcastsInDim S1x512 (![] : Fin 0 → Fin S1x512.rank)
  shapeCasts_S1x512_S512 : S1x512.ShapeCasts S512
  reducesTo_S1x512_S_d0_1 : S1x512.ReducesTo [0, 1] S_
  bcast_S512_S1x512_1 : S512.BroadcastsInDim S1x512 (![1] : Fin 1 → Fin S1x512.rank)
  bcast_S128_S128x1_0 : S128.BroadcastsInDim S128x1 (![0] : Fin 1 → Fin S128x1.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  reducesTo_S128x512_S_d0_1 : S128x512.ReducesTo [0, 1] S_
  shapeCasts_S512_S1x1x512 : S512.ShapeCasts S1x1x512
  inb_S8x128_S8x128_0_0 : ∀ a, (![0, 0] : Fin 2 → Nat) a + S8x128.size a ≤ S8x128.size a
  h_S8x128 : 0 < S8x128.numel
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  h_S32x32x512 : 0 < S32x32x512.numel
  h_S32x32 : 0 < S32x32.numel
  shapeCasts_S32x32_S32x32 : S32x32.ShapeCasts S32x32
  broadcasts_S1x1x512_S32x32x512 : S1x1x512.Broadcasts S32x32x512
  reduces_S32x32x512_S32x32 : S32x32x512.Reduces [2] S32x32
  reduces_S32x32_S32 : S32x32.Reduces [1] S32
  shapeCasts_S32_S32x1 : S32.ShapeCasts S32x1
  reduces_S32x1_S1 : S32x1.Reduces [0] S1
  shapeCasts_S1_S1x1 : S1.ShapeCasts S1x1
  iota_S8x128_d0_w32 : S8x128.Iotas .tc 32 [0]
  iota_S8x128_d1_w32 : S8x128.Iotas .tc 32 [1]
  natLt_1_32 : 1 < 32
  shapeCasts_S8x128_S8x128 : S8x128.ShapeCasts S8x128
  shapeCasts_S1x1_S1x1 : S1x1.ShapeCasts S1x1
  broadcasts_S1x1_S8x128 : S1x1.Broadcasts S8x128
  reducesTo_S32x128_S_d0_1 : S32x128.ReducesTo [0, 1] S_
  dot_S1x64_S64x64_S1x64_1_0_0_1_n_n_wf : DotDims.WF S1x64 S64x64 S1x64 [1] [0] [0] [1] [] []
  dot_S1x64_S64x512_S1x512_1_0_0_1_n_n_wf : DotDims.WF S1x64 S64x512 S1x512 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x32x512.size a ≤ S32x256x512.size a
  k0_off2_inb : ∀ k0_t1 : Fin k0_t1_loop.trips, ∀ a, (k0_off2 k0_t1) a + S32x32.size a ≤ S32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S128x512x512.size a
  hwx0_0 : ∀ i : grid0.Coords, EltTy.bits .f32 = 32 ∨ (Rect.block (s := S128x512x512) S32x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S128x512.size a
  hwx0_1 : ∀ i : grid0.Coords, EltTy.bits .f32 = 32 ∨ (Rect.block (s := S128x512) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S1x1x512.size a
  hwx0_2 : ∀ i : grid0.Coords, EltTy.bits .f32 = 32 ∨ (Rect.block (s := S1x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)

variable [Facts₀]

def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x512_S1x512_1_0_0_1_n_n : DotDims S1x64 S64x512 S1x512 where
  lhsContracting := [1]
  rhsContracting := [0]
  lhsNonContracting := [0]
  rhsNonContracting := [1]
  lhsBatch := []
  rhsBatch := []
  wf := dot_S1x64_S64x512_S1x512_1_0_0_1_n_n_wf

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v105) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v107) S1x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v108) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S128 : Shape := ⟨1, ![128]⟩
abbrev S64x64 : Shape := ⟨2, ![64, 64]⟩
abbrev S64x512 : Shape := ⟨2, ![64, 512]⟩
abbrev S64 : Shape := ⟨1, ![64]⟩
abbrev S1x64 : Shape := ⟨2, ![1, 64]⟩
abbrev S_ : Shape := ⟨0, ![]⟩
abbrev S1 : Shape := ⟨1, ![1]⟩
abbrev S1x1 : Shape := ⟨2, ![1, 1]⟩
abbrev S64x1 : Shape := ⟨2, ![64, 1]⟩
abbrev S512 : Shape := ⟨1, ![512]⟩
abbrev S1x512 : Shape := ⟨2, ![1, 512]⟩
abbrev S128x512 : Shape := ⟨2, ![128, 512]⟩
abbrev S1x1x512 : Shape := ⟨3, ![1, 1, 512]⟩
abbrev S128x1 : Shape := ⟨2, ![128, 1]⟩

abbrev nBuf : Space → Nat
  | .hbm => 149
  | .vmem => 0
  | .smem => 0
  | _ => 0

abbrev hbmTy0_0 (i : Nat) : BufTy := match i % 128 with
  | 0 => ⟨S128x512x512, .f32⟩
  | 1 => ⟨S128, .i32⟩
  | 2 => ⟨S64x64, .f32⟩
  | 3 => ⟨S64x512, .f32⟩
  | 4 => ⟨S64, .f32⟩
  | 5 => ⟨S1x64, .f32⟩
  | 6 => ⟨S_, .f32⟩
  | 7 => ⟨S1, .f32⟩
  | 8 => ⟨S_, .f32⟩
  | 9 => ⟨S1, .f32⟩
  | 10 => ⟨S1, .f32⟩
  | 11 => ⟨S1x1, .f32⟩
  | 12 => ⟨S1x64, .f32⟩
  | 13 => ⟨S1x64, .f32⟩
  | 14 => ⟨S1x64, .f32⟩
  | 15 => ⟨S_, .f32⟩
  | 16 => ⟨S1, .f32⟩
  | 17 => ⟨S1x1, .f32⟩
  | 18 => ⟨S1x64, .f32⟩
  | 19 => ⟨S1x64, .f32⟩
  | 20 => ⟨S_, .f32⟩
  | 21 => ⟨S_, .f32⟩
  | 22 => ⟨S_, .f32⟩
  | 23 => ⟨S_, .f32⟩
  | 24 => ⟨S1, .f32⟩
  | 25 => ⟨S64, .f32⟩
  | 26 => ⟨S64, .f32⟩
  | 27 => ⟨S64, .f32⟩
  | 28 => ⟨S_, .f32⟩
  | 29 => ⟨S_, .f32⟩
  | 30 => ⟨S1, .f32⟩
  | 31 => ⟨S64, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S_, .f32⟩
  | 45 => ⟨S1, .f32⟩
  | 46 => ⟨S_, .f32⟩
  | 47 => ⟨S64, .f32⟩
  | 48 => ⟨S_, .f32⟩
  | 49 => ⟨S64, .f32⟩
  | 50 => ⟨S64, .f32⟩
  | 51 => ⟨S64x1, .f32⟩
  | 52 => ⟨S64x64, .f32⟩
  | 53 => ⟨S64x64, .f32⟩
  | 54 => ⟨S64x64, .f32⟩
  | 55 => ⟨S_, .f32⟩
  | 56 => ⟨S64, .f32⟩
  | 57 => ⟨S64x1, .f32⟩
  | 58 => ⟨S64x64, .f32⟩
  | 59 => ⟨S64x64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S_, .f32⟩
  | 66 => ⟨S1, .f32⟩
  | 67 => ⟨S_, .f32⟩
  | 68 => ⟨S1, .f32⟩
  | 69 => ⟨S1, .f32⟩
  | 70 => ⟨S1x1, .f32⟩
  | 71 => ⟨S1x64, .f32⟩
  | 72 => ⟨S1x64, .f32⟩
  | 73 => ⟨S1x64, .f32⟩
  | 74 => ⟨S_, .f32⟩
  | 75 => ⟨S1, .f32⟩
  | 76 => ⟨S1x1, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S_, .f32⟩
  | 90 => ⟨S1, .f32⟩
  | 91 => ⟨S512, .i32⟩
  | 92 => ⟨S_, .i32⟩
  | 93 => ⟨S512, .i32⟩
  | 94 => ⟨S512, .i1⟩
  | 95 => ⟨S512, .f32⟩
  | 96 => ⟨S512, .f32⟩
  | 97 => ⟨S512, .f32⟩
  | 98 => ⟨S1x512, .f32⟩
  | 99 => ⟨S128x512, .f32⟩
  | 100 => ⟨S64x512, .f32⟩
  | 101 => ⟨S64x512, .f32⟩
  | 102 => ⟨S_, .f32⟩
  | 103 => ⟨S64x512, .f32⟩
  | 104 => ⟨S64x512, .f32⟩
  | 105 => ⟨S_, .f32⟩
  | 106 => ⟨S64x512, .f32⟩
  | 107 => ⟨S64x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S1x1x512, .f32⟩
  | 121 => ⟨S128x512x512, .f32⟩
  | 122 => ⟨S128x512x512, .f32⟩
  | 123 => ⟨S_, .f32⟩
  | 124 => ⟨S128x512x512, .f32⟩
  | 125 => ⟨S128x512x512, .f32⟩
  | 126 => ⟨S1x1x512, .f32⟩
  | 127 => ⟨S128x512x512, .f32⟩
  | _ => ⟨S128x512x512, .f32⟩

abbrev hbmTy0_1 (i : Nat) : BufTy := match i % 128 with
  | 0 => ⟨S128x512x512, .f32⟩
  | 1 => ⟨S128x512x512, .f32⟩
  | 2 => ⟨S_, .f32⟩
  | 3 => ⟨S128x512, .f32⟩
  | 4 => ⟨S128x512, .f32⟩
  | 5 => ⟨S1x512, .i32⟩
  | 6 => ⟨S128x1, .i32⟩
  | 7 => ⟨S128x512, .i32⟩
  | 8 => ⟨S128x512, .i32⟩
  | 9 => ⟨S128x512, .i1⟩
  | 10 => ⟨S128x512, .f32⟩
  | 11 => ⟨S_, .f32⟩
  | 12 => ⟨S_, .f32⟩
  | 13 => ⟨S128x512, .f32⟩
  | 14 => ⟨S_, .f32⟩
  | 15 => ⟨S_, .f32⟩
  | 16 => ⟨S_, .f32⟩
  | 17 => ⟨S128x512, .f32⟩
  | 18 => ⟨S_, .f32⟩
  | 19 => ⟨S_, .f32⟩
  | 20 => ⟨S_, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_v68 : Ref sig .tc := ⟨.hbm, 94, rfl⟩
abbrev main_call0_v0 : Ref sig .tc := ⟨.hbm, 95, rfl⟩
abbrev main_call0_v1 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_v82 : Ref sig .tc := ⟨.hbm, 114, rfl⟩
abbrev main_v83 : Ref sig .tc := ⟨.hbm, 115, rfl⟩
abbrev main_cst_22 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_24 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_cst_26 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_27 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]

class Facts₀ : Prop where
  reducesTo_S1x64_S1_d1 : S1x64.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  reducesTo_S64_S_d0 : S64.ReducesTo [0] S_
  bcast_S1_S64_0 : S1.BroadcastsInDim S64 (![0] : Fin 1 → Fin S64.rank)
  bcast_S64_S1x64_1 : S64.BroadcastsInDim S1x64 (![1] : Fin 1 → Fin S1x64.rank)
  bcast_S_S1x64 : S_.BroadcastsInDim S1x64 (![] : Fin 0 → Fin S1x64.rank)
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S512 : S_.BroadcastsInDim S512 (![] : Fin 0 → Fin S512.rank)
  bcast_S1_S512_0 : S1.BroadcastsInDim S512 (![0] : Fin 1 → Fin S512.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S64x512 : S_.BroadcastsInDim S64x512 (![] : Fin 0 → Fin S64x512.rank)
  bcast_S_S1x512 : S_.BroadcastsInDim S1x512 (![] : Fin 0 → Fin S1x512.rank)
  bcast_S1x512_S1x1x512_0_2 : S1x512.BroadcastsInDim S1x1x512 (![0, 2] : Fin 2 → Fin S1x1x512.rank)
  bcast_S1x1x512_S128x512x512_0_1_2 : S1x1x512.BroadcastsInDim S128x512x512 (![0, 1, 2] : Fin 3 → Fin S128x512x512.rank)
  bcast_S_S128x512x512 : S_.BroadcastsInDim S128x512x512 (![] : Fin 0 → Fin S128x512x512.rank)
  reducesTo_S128x512x512_S128x512_d2 : S128x512x512.ReducesTo [2] S128x512
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x512_S_d0_1 : S128x512.ReducesTo [0, 1] S_
  dot_S1x64_S64x64_S1x64_1_0_0_1_n_n_wf : DotDims.WF S1x64 S64x64 S1x64 [1] [0] [0] [1] [] []
  dot_S1x64_S64x512_S1x512_1_0_0_1_n_n_wf : DotDims.WF S1x64 S64x512 S1x512 [1] [0] [0] [1] [] []

variable [Facts₀]

def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x512_S1x512_1_0_0_1_n_n : DotDims S1x64 S64x512 S1x512 where
  lhsContracting := [1]
  rhsContracting := [0]
  lhsNonContracting := [0]
  rhsNonContracting := [1]
  lhsBatch := []
  rhsBatch := []
  wf := dot_S1x64_S64x512_S1x512_1_0_0_1_n_n_wf

class Facts : Prop extends Facts₀ where

variable [Facts]
-- ==== Proof.KBody.lean ====
/-
  What the kernel body computes, read off the generated run of its two cases.

  The body loads the coefficient row `v` once, then runs eight trips; trip `k` loads steps `32 k … 32 k + 31` of the
  data block and of the mask block and adds their masked dot-product sum to a carried [1, 1] value; after the loop the
  carried value is added into cell (0, 0) of the output block, which the first time step of a row block has zeroed.
-/
import proofs.«411001_j80410377716208_3_alg».proof.Proof.Gen.KernelIdeal.Frame
import Idealize.ShloMosaic.Lib.Pipeline.Value

noncomputable section

namespace Cert.KernelIdeal.KBody

open Idealize.ShloMosaic Idealize.ShloMosaic.TcCoe Idealize.ShloMosaic.Tactic
open Idealize.SL Idealize.SL.RA Idealize.SL.BI
open Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One trip yields the loop body's payload of the carried value and the two chunks it loads. -/
theorem tripR_eq (𝒱 : Variants) (c : Dev nD) (bd : Option 𝒱.V) (i : grid0.Coords) (arg2 : Memref sig .tc .vmem S32x256x512 .f32) (harg2 : arg2.IsWhole) (arg3 : Memref sig .tc .vmem S32x256 .f32) (harg3 : arg3.IsWhole) (arg4 : Memref sig .tc .vmem S1x1x512 .f32) (harg4 : arg4.IsWhole) (arg5 : Memref sig .tc .vmem S8x128 .f32) (harg5 : arg5.IsWhole) (v3 : Vec F S1x1x512 .f32) (X_arg2 : BufTy.Contents (Elt F) arg2.view.ty) (X_arg3 : BufTy.Contents (Elt F) arg3.view.ty) (k : Fin k0_t1_loop.trips) (acc : FVec F S1x1 .f32) :
    tripR_k0_t1 (F := F) 𝒱 c bd i arg2 harg2 arg3 harg3 arg4 harg4 arg5 harg5 v3 X_arg2 X_arg3 k acc
      = k0_pay3 v3 acc (View.readAt (Elt F) arg2.view (Rect.unit (s := S32x256x512) (k0_off1 k) S32x32x512.size (k0_off1_inb k)).toLoadRect X_arg2)
          (View.readAt (Elt F) arg3.view (Rect.unit (s := S32x256) (k0_off2 k) S32x32.size (k0_off2_inb k)).toLoadRect X_arg3) := by
  unfold tripR_k0_t1 trip_k0_t1
  rfl

/-- Steps `32 k … 32 k + 31` of a data block. -/
def xck (x0 : Vec F S32x256x512 .f32) (k : Fin k0_t1_loop.trips) : Vec F S32x32x512 .f32 :=
  View.ld x0 (Rect.unit (s := S32x256x512) (k0_off1 k) S32x32x512.size (k0_off1_inb k))

/-- Steps `32 k … 32 k + 31` of a mask block. -/
def mck (x1 : Vec F S32x256 .f32) (k : Fin k0_t1_loop.trips) : Vec F S32x32 .f32 :=
  View.ld x1 (Rect.unit (s := S32x256) (k0_off2 k) S32x32.size (k0_off2_inb k))

/-- The carried value before trip `n`. -/
def accAt (x0 : Vec F S32x256x512 .f32) (x1 : Vec F S32x256 .f32) (x2 : Vec F S1x1x512 .f32) : ℕ → FVec F S1x1 .f32
  | 0 => k0_pay2
  | n + 1 => if h : n < k0_t1_loop.trips then k0_pay3 x2 (accAt x0 x1 x2 n) (xck x0 ⟨n, h⟩) (mck x1 ⟨n, h⟩) else accAt x0 x1 x2 n

/-- The generated recursion over the trips is `accAt` of the blocks' contents. -/
theorem st_eq (c : Dev nD) (i : grid0.Coords) (arg2 : Memref sig .tc .vmem S32x256x512 .f32) (harg2 : arg2.IsWhole) (arg3 : Memref sig .tc .vmem S32x256 .f32) (harg3 : arg3.IsWhole) (arg4 : Memref sig .tc .vmem S1x1x512 .f32) (harg4 : arg4.IsWhole) (arg5 : Memref sig .tc .vmem S8x128 .f32) (harg5 : arg5.IsWhole)
    (x0 : Vec F S32x256x512 .f32) (x1 : Vec F S32x256 .f32) (x2 : Vec F S1x1x512 .f32) (n : ℕ) :
    st_k0_t1 (F := F) Variants.none c none i arg2 harg2 arg3 harg3 arg4 harg4 arg5 harg5 x2 (harg2.unread x0) (harg3.unread x1) k0_pay2 n
      = accAt x0 x1 x2 n := by
  induction n with
  | zero => rfl
  | succ n ih =>
    rw [st_k0_t1.eq_2, accAt]
    unfold st_k0_t1Step
    by_cases h : n < k0_t1_loop.trips
    · rw [dif_pos h, dif_pos h, tripR_eq, ih]
      simp only [View.readAt_eq_ld, harg2.read_unread, harg3.read_unread]
      rfl
    · rw [dif_neg h, dif_neg h, ih]

/-- The loop runs eight trips. -/
theorem trips_eq : Scf.trips (0#32) (Scalar.addi 0#32 8#32) 1#32 = 8 := by decide

theorem loop_trips : k0_t1_loop.trips = 8 := by decide

/-- A later time step of a row block: the output block `xo` of the step before, plus the loop's sum in cell (0, 0). -/
theorem out_B (c : Dev nD) (i : grid0.Coords) (arg2 : Memref sig .tc .vmem S32x256x512 .f32) (harg2 : arg2.IsWhole) (arg3 : Memref sig .tc .vmem S32x256 .f32) (harg3 : arg3.IsWhole) (arg4 : Memref sig .tc .vmem S1x1x512 .f32) (harg4 : arg4.IsWhole) (arg5 : Memref sig .tc .vmem S8x128 .f32) (harg5 : arg5.IsWhole) (hc0 : ¬cond0_0 i)
    (x0 : Vec F S32x256x512 .f32) (x1 : Vec F S32x256 .f32) (x2 : Vec F S1x1x512 .f32) (xo3 : Vec F S8x128 .f32) :
    out0_B_3 c i arg2 harg2 arg3 harg3 arg4 harg4 arg5 harg5 hc0 x0 x1 x2 xo3 = k0_pay4 (accAt x0 x1 x2 8) xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz2]
  simp only [View.readAt_eq_ld, harg4.read_unread, harg5.read_unread, View.ld_unit_zero (S := S1x1x512) hz3,
    View.ld_unit_zero (S := S8x128) hz2, trips_eq]
  rw [st_eq]

/-- The first time step of a row block: the zeroed block, plus the loop's sum in cell (0, 0). -/
theorem out_A (c : Dev nD) (i : grid0.Coords) (arg2 : Memref sig .tc .vmem S32x256x512 .f32) (harg2 : arg2.IsWhole) (arg3 : Memref sig .tc .vmem S32x256 .f32) (harg3 : arg3.IsWhole) (arg4 : Memref sig .tc .vmem S1x1x512 .f32) (harg4 : arg4.IsWhole) (arg5 : Memref sig .tc .vmem S8x128 .f32) (harg5 : arg5.IsWhole) (hc0 : cond0_0 i)
    (x0 : Vec F S32x256x512 .f32) (x1 : Vec F S32x256 .f32) (x2 : Vec F S1x1x512 .f32) :
    out0_A_3 c i arg2 harg2 arg3 harg3 arg4 harg4 arg5 harg5 hc0 x0 x1 x2 = k0_pay4 (accAt x0 x1 x2 8) (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S8x128) hz2, View.readCov_unit_zero (S := S8x128) _ hz2]
  simp only [View.readAt_eq_ld, harg4.read_unread, View.ld_unit_zero (S := S1x1x512) hz3, trips_eq]
  rw [st_eq]

end Cert.KernelIdeal.KBody

end
-- ==== Proof.KArray.lean ====
/-
  The kernel's output array after the run.

  Row block `i` of the output is visited by the two grid points `2 i` (which zeroes it and adds its loop sum into
  cell (0, 0)) and `2 i + 1` (which adds its own), and is written back after the second; the four row blocks tile the
  array, so the array ends holding, block by block, the closing payload applied twice to the zero block.
-/
import proofs.«411001_j80410377716208_3_alg».proof.Proof.KBody
import Idealize.ShloMosaic.Lib.ValueIdx
import Idealize.ShloMosaic.Lib.Pipeline.Value

noncomputable section

namespace Cert.KernelIdeal.KArray

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.KBody

variable {F : FTy → Type} [FloatOps F]
variable (m : (ℓ : Loc nD τ sig) → Buf (Elt F) ℓ)

/-- The data, mask and coefficient blocks grid point `t` reads. -/
abbrev xblk (c : Dev nD) (t : Fin cfg0.N) : Vec F S32x256x512 .f32 := iblk m c 0 t
abbrev mblk (c : Dev nD) (t : Fin cfg0.N) : Vec F S32x256 .f32 := iblk m c 1 t
abbrev vblk (c : Dev nD) (t : Fin cfg0.N) : Vec F S1x1x512 .f32 := iblk m c 2 t

/-- The loop's sum at grid point `t`. -/
def T (c : Dev nD) (t : Fin cfg0.N) : FVec F S1x1 .f32 := accAt (xblk m c t) (mblk m c t) (vblk m c t) 8

/-- After the first time step of a row block. -/
theorem outsAt_even (c : Dev nD) (t : Fin cfg0.N) (h : t.val % 2 = 0) :
    outsAt0 m c t.val t.isLt = k0_pay4 (T m c t) (k0_pay1 (F := F)) := by
  rw [outsAt0_A m c t h]
  exact out_A c (grid0.coords t) (ms0_0 t) (hs0_0 t) (ms0_1 t) (hs0_1 t) (ms0_2 t) (hs0_2 t) (ms0_3 t) (hs0_3 t)
    ((hcond0_0 t).mpr h) (iblk m c 0 t) (iblk m c 1 t) (iblk m c 2 t)

/-- The grid point before `t`. -/
def prev (t : Fin cfg0.N) : Fin cfg0.N := ⟨t.val - 1, Nat.lt_of_le_of_lt (Nat.sub_le _ _) t.isLt⟩

/-- After the second time step of a row block. -/
theorem outsAt_odd (c : Dev nD) (t : Fin cfg0.N) (h : ¬t.val % 2 = 0) :
    outsAt0 m c t.val t.isLt = k0_pay4 (T m c t) (k0_pay4 (T m c (prev t)) (k0_pay1 (F := F))) := by
  rw [outsAt0_B m c t h, out_B]
  have e := outsAt_even m c (prev t) (by show (t.val - 1) % 2 = 0; omega)
  show k0_pay4 _ (outsAt0 m c (prev t).val (prev t).isLt) = _
  rw [e]
  rfl

/-- Grid point `(i, j)`. -/
def pt (i : Fin 4) (j : Fin 2) : Fin cfg0.N := ⟨2 * i.val + j.val, by rw [show cfg0.N = 8 from N_0]; omega⟩

/-- Entry `(r, cc)` of row block `i` of the output array after the run. -/
def Gat (c : Dev nD) (i : Fin 4) (r : Fin 8) (cc : Fin 128) : Elt F .f32 :=
  k0_pay4 (T m c (pt i 1)) (k0_pay4 (T m c (pt i 0)) (k0_pay1 (F := F))) (ix2 r cc)

/-- The output array after the run. -/
def G (c : Dev nD) : S32x128.Idx → Elt F .f32 := fun jj =>
  Gat m c ⟨(jj 0).val / 8, by have := idx2_lt0 jj; omega⟩ ⟨(jj 0).val % 8, by omega⟩ ⟨(jj 1).val, idx2_lt1 jj⟩

theorem Gat_congr (c : Dev nD) {i i' : Fin 4} {r r' : Fin 8} {cc cc' : Fin 128} (hi : i.val = i'.val) (hr : r.val = r'.val)
    (hc : cc.val = cc'.val) : Gat m c i r cc = Gat m c i' r' cc' := by
  obtain rfl := Fin.ext hi; obtain rfl := Fin.ext hr; obtain rfl := Fin.ext hc; rfl

/-- The output window's block index at point `t`: row block `t / 2`, column block 0. -/
theorem idx_facts3 : ∀ t : Fin cfg0.N, win0_3.index t (0 : Fin 2) = t.val / 2 ∧ win0_3.index t (1 : Fin 2) = 0 :=
  (by decide +kernel : ∀ t : Fin grid0.N, _)

/-- What a flushing point writes back is its block of `G`. -/
theorem flushed_eq (c : Dev nD) (t : Fin cfg0.N) (hf : (cfg0.win 3).flush t = true) :
    (dats m 0 c).flushed 3 t = ((cfg0.win 3).blk t).view.read (Elt F) (G m c) := by
  have hodd : t.val % 2 = 1 := (flush0_3 t).mp hf
  have hN : t.val < 8 := lt_of_lt_of_eq t.isLt (show cfg0.N = 8 from N_0)
  show (cfg0.win 3).cut (grid0.coords t) ((dats m 0 c).after 3 t) = _
  rw [after0_3, outsAt_odd m c t (by omega)]
  obtain ⟨e0, e1⟩ := idx_facts3 t
  funext y
  show k0_pay4 (T m c t) (k0_pay4 (T m c (prev t)) k0_pay1) y = G m c (((cfg0.win 3).blk t).view.emb y)
  have hy0 : (y 0).val < 8 := (y 0).isLt
  have hy1 : (y 1).val < 128 := (y 1).isLt
  have p1 : pt ⟨t.val / 2, by omega⟩ 1 = t := Fin.ext (by show 2 * (t.val / 2) + 1 = t.val; omega)
  have p0 : pt ⟨t.val / 2, by omega⟩ 0 = prev t := Fin.ext (by show 2 * (t.val / 2) + 0 = t.val - 1; omega)
  have ey : (ix2 ⟨(y 0).val, hy0⟩ ⟨(y 1).val, hy1⟩ : S8x128.Idx) = y := by
    funext a; match a with | ⟨0, _⟩ => rfl | ⟨1, _⟩ => rfl
  unfold G
  refine Eq.trans ?_ (Gat_congr m c (i := ⟨t.val / 2, by omega⟩) (r := ⟨(y 0).val, hy0⟩) (cc := ⟨(y 1).val, hy1⟩) ?_ ?_ ?_)
  · unfold Gat; rw [p1, p0, ey]
  · show t.val / 2 = (win0_3.index t (0 : Fin 2) * 8 + 1 * (y 0).val) / 8
    rw [e0]; omega
  · show (y 0).val = (win0_3.index t (0 : Fin 2) * 8 + 1 * (y 0).val) % 8
    rw [e0]; omega
  · show (y 1).val = win0_3.index t (1 : Fin 2) * 128 + 1 * (y 1).val
    rw [e1]; omega

/-- Every entry of the output array lies in the block its row block's second point writes back. -/
theorem cover (c : Dev nD) (i : S32x128.Idx) :
    ∃ t : Fin cfg0.N, (cfg0.win 3).flush t = true ∧ i ∈ ((cfg0.win 3).blk t).view.set := by
  have hi0 : (i 0).val < 32 := idx2_lt0 i
  have hi1 : (i 1).val < 128 := idx2_lt1 i
  obtain ⟨t', ht'⟩ : ∃ t' : Fin cfg0.N, t'.val = 2 * ((i 0).val / 8) + 1 := ⟨pt ⟨(i 0).val / 8, by omega⟩ 1, rfl⟩
  refine ⟨t', (flush0_3 t').mpr (by omega), ?_⟩
  obtain ⟨e0, e1⟩ := idx_facts3 t'
  show i ∈ ((View.whole main_v108).slice (win0_3.rect t')).set
  rw [View.set_slice_whole, Rect.mem_set_unit]
  intro a
  match a with
  | ⟨0, _⟩ =>
    show win0_3.index t' (0 : Fin 2) * 8 ≤ (i 0).val ∧ (i 0).val < win0_3.index t' (0 : Fin 2) * 8 + 8
    rw [e0, ht']; omega
  | ⟨1, _⟩ =>
    show win0_3.index t' (1 : Fin 2) * 128 ≤ (i 1).val ∧ (i 1).val < win0_3.index t' (1 : Fin 2) * 128 + 128
    rw [e1]; omega

/-- The output array after the run. -/
theorem final_arr (c : Dev nD) : (dats m 0 c).arrAt 3 cfg0.N = G m c :=
  (dats m 0 c).arrAt_eq_of_cover 3 (G m c) (flushed_eq m c) (cover c)

end Cert.KernelIdeal.KArray

end
-- ==== Proof.KTail.lean ====
/-
  The kernel program's run, read: after the kernel region the host sums the output array, negates, divides by the
  number of valid steps and subtracts `∑ b`; the divergence sum is divided by the same number.
-/
import proofs.«411001_j80410377716208_3_alg».proof.Proof.KArray
import Idealize.ShloMosaic.Lib.StableHlo.Run
import Idealize.ShloMosaic.Lib.Tactic

noncomputable section

namespace Cert.KernelIdeal.KTail

open Idealize.ShloMosaic Idealize.ShloMosaic.TcCoe Idealize.ShloMosaic.Tactic
open Idealize.SL Idealize.SL.Sem Idealize.ShloMosaic.StableHlo
open Cert.KernelIdeal Cert.KernelIdeal.Gen Cert.KernelIdeal.KArray

variable {F : FTy → Type} [FloatOps F]
variable (m : (ℓ : Loc nD τ sig) → Buf (Elt F) ℓ) (ρ : Dev nD → PrngReg)

/-- The first result: `(-(∑ out)) / den - cst`. -/
def recTerm (c : Dev nD) : Buf (Elt F) ((c.tc : Thread nD τ).loc main_v112) :=
  subf (Host.divf (Host.negf (Host.reduceAdd (G m c) (constant S_ .f32 0#32) reducesTo_S32x128_S_d0_1 h_S_)) (V m c main_v106)) (V m c main_v98)

/-- The second result: `klsum / den`. -/
def klTerm (c : Dev nD) : Buf (Elt F) ((c.tc : Thread nD τ).loc main_v113) :=
  Host.divf (V m c main_v80) (V m c main_v106)

theorem tail_rec (c : Dev nD) :
    Pipeline.afterTail₀ cfgs (dats m) 0 (V0 m) [hostOps1] c main_v112 = recTerm m c := by
  unfold Pipeline.afterTail₀ recTerm
  show StableHlo.after hostOps1 _ (Proc.devRef .tc main_v112) = _
  after_results
  rw [Pipeline.withArrays_of_ne _ c (V0 m c) _ main_v106 (by exact (by decide : ∀ w, Pipeline.arrRef spec0 w ≠ main_v106)),
    Pipeline.withArrays_of_ne _ c (V0 m c) _ main_v98 (by exact (by decide : ∀ w, Pipeline.arrRef spec0 w ≠ main_v98)),
    (Pipeline.withArrays_arr spec0 launch0.win.arr_inj c _ _ 3).trans (final_arr m c)]

theorem tail_kl (c : Dev nD) :
    Pipeline.afterTail₀ cfgs (dats m) 0 (V0 m) [hostOps1] c main_v113 = klTerm m c := by
  unfold Pipeline.afterTail₀ klTerm
  show StableHlo.after hostOps1 _ (Proc.devRef .tc main_v113) = _
  after_results
  rw [Pipeline.withArrays_of_ne _ c (V0 m c) _ main_v106 (by exact (by decide : ∀ w, Pipeline.arrRef spec0 w ≠ main_v106)),
    Pipeline.withArrays_of_ne _ c (V0 m c) _ main_v80 (by exact (by decide : ∀ w, Pipeline.arrRef spec0 w ≠ main_v80))]

/-- Every weakly fair execution terminates with the two results at these terms and the arguments unchanged. -/
theorem run : θ_run defs (onTc (τ := τ) (main (F := F))) ⟨m, fun _ => 0, ρ⟩ (fun r => ∀ c : Dev nD,
      r.2.mem ((c.tc : Thread nD τ).loc main_v112) = recTerm m c
      ∧ r.2.mem ((c.tc : Thread nD τ).loc main_v113) = klTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v112 (Pipeline.mem_restRefs_of main_v112 (by decide) (by decide))).trans (tail_rec m c),
      ((h c).2 main_v113 (Pipeline.mem_restRefs_of main_v113 (by decide) (by decide))).trans (tail_kl m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KTail

end
-- ==== Proof.KIdeal.lean ====
/-
  The body's two payloads read at the ideal instance, where a float is an extended real and every operation exact:
  one trip adds to the carried value the sum, over 32 rows and 32 steps, of the masked dot products of a data row with
  the coefficient row; the closing payload adds the loop's sum into cell (0, 0) of the output block.
-/
import proofs.«411001_j80410377716208_3_alg».proof.Proof.KBody
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KIdeal

open Idealize.ShloMosaic Idealize.ShloMosaic.ValueIdx
open Cert.KernelIdeal Cert.KernelIdeal.Gen Cert.KernelIdeal.KBody
open scoped BigOperators

/-- Step `32 k + q` of a 256-step block. -/
def stepOf (k : Fin 8) (q : Fin 32) : Fin 256 := ⟨32 * k.val + q.val, by omega⟩

/-- Chunk `k`'s masked dot-product sum: data block `x0`, mask block `x1`, coefficient row `x2`. -/
def chunkVal (x0 : Vec Ideal S32x256x512 .f32) (x1 : Vec Ideal S32x256 .f32) (x2 : Vec Ideal S1x1x512 .f32) (k : Fin 8) : EReal :=
  ∑ p : Fin 32, ∑ q : Fin 32, (∑ d : Fin 512, x0 (ix3 p (stepOf k q) d) * x2 (ix3 0 0 d)) * x1 (ix2 p (stepOf k q))

/-! ### The zero words -/

theorem pay2_zero (j : S1x1.Idx) : k0_pay2 (F := Ideal) j = 0 := by
  unfold k0_pay2
  show Ideal.ofBits .f32 0x00000000#32 = 0
  exact Ideal.ofBits_zero_f32

/-! ### Each reduction of one trip as a sum over the reduced coordinate -/

/-- The sum over features: a [32, 32, 512] value reduced along its last axis, at (p, q). -/
theorem red_feat (w : FVec Ideal S32x32x512 .f32) (h : S32x32x512.Reduces [2] S32x32) (hφ : FKind.Formats .f32)
    (hacc : (0x00000000#32 : BitVec 32) = FKind.add.neutral .f32 hφ) (p q : Fin 32) :
    multiReduction (F := Ideal) .add [2] S32x32 w 0x00000000#32 h hφ hacc (ix2 p q) = ∑ d : Fin 512, w (ix3 p q d) := by
  refine (Ideal.multiReduction_add_single w _ h hφ hacc (ix2 p q)).trans ?_
  show (∑ d : Fin 512, w (h.lift (ix2 p q) d)) = _
  refine Finset.sum_congr rfl fun d _ => congrArg w ?_
  funext c
  match c with
  | ⟨0, _⟩ => exact Fin.ext rfl
  | ⟨1, _⟩ => exact Fin.ext rfl
  | ⟨2, _⟩ => exact Fin.ext rfl

/-- The sum over steps: a [32, 32] value reduced along its second axis, at p. -/
theorem red_step (u : FVec Ideal S32x32 .f32) (h : S32x32.Reduces [1] S32) (hφ : FKind.Formats .f32)
    (hacc : (0x00000000#32 : BitVec 32) = FKind.add.neutral .f32 hφ) (p : Fin 32) :
    multiReduction (F := Ideal) .add [1] S32 u 0x00000000#32 h hφ hacc (ix1 p) = ∑ q : Fin 32, u (ix2 p q) := by
  refine (Ideal.multiReduction_add_single u _ h hφ hacc (ix1 p)).trans ?_
  show (∑ q : Fin 32, u (h.lift (ix1 p) q)) = _
  refine Finset.sum_congr rfl fun q _ => congrArg u ?_
  funext c
  match c with
  | ⟨0, _⟩ => exact Fin.ext rfl
  | ⟨1, _⟩ => exact Fin.ext rfl

/-- The sum over rows: a [32, 1] column reduced along its first axis. -/
theorem red_row (z : FVec Ideal S32x1 .f32) (h : S32x1.Reduces [0] S1) (hφ : FKind.Formats .f32)
    (hacc : (0x00000000#32 : BitVec 32) = FKind.add.neutral .f32 hφ) :
    multiReduction (F := Ideal) .add [0] S1 z 0x00000000#32 h hφ hacc (ix1 (0 : Fin 1)) = ∑ p : Fin 32, z (ix2 p (0 : Fin 1)) := by
  refine (Ideal.multiReduction_add_single z _ h hφ hacc (ix1 (0 : Fin 1))).trans ?_
  show (∑ p : Fin 32, z (h.lift (ix1 (0 : Fin 1)) p)) = _
  refine Finset.sum_congr rfl fun p _ => congrArg z ?_
  funext c
  match c with
  | ⟨0, _⟩ => exact Fin.ext rfl
  | ⟨1, _⟩ => exact Fin.ext rfl

/-! ### The layout steps of one trip read at an index -/

/-- A [32] vector viewed as a [32, 1] column reads its p-th entry at (p, 0). -/
theorem cast_col {α : Type} (u : S32.Idx → α) (h : S32.ShapeCasts S32x1) (p : Fin 32) :
    shapeCast S32x1 u h (ix2 p (0 : Fin 1)) = u (ix1 p) := by
  refine shapeCast_apply u h _ (ix1 p) ?_
  rw [Shape.rowMajor_val_one, Shape.rowMajor_val_two]
  show p.val = p.val * 1 + 0
  omega

/-- A [1] vector viewed as [1, 1] reads its one entry. -/
theorem cast_one {α : Type} (u : S1.Idx → α) (h : S1.ShapeCasts S1x1) (j : S1x1.Idx) :
    shapeCast S1x1 u h j = u (ix1 (0 : Fin 1)) := by
  refine shapeCast_apply u h j (ix1 (0 : Fin 1)) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- The coefficient row broadcast over rows and steps reads its d-th entry at (p, q, d). -/
theorem bcast_coef {α : Type} (v : S1x1x512.Idx → α) (h : S1x1x512.Broadcasts S32x32x512) (p q : Fin 32) (d : Fin 512) :
    broadcastTo S32x32x512 v h (ix3 p q d) = v (ix3 (0 : Fin 1) (0 : Fin 1) d) := by
  refine broadcastTo_apply v h _ _ fun a => ?_
  match a with
  | ⟨0, _⟩ => rfl
  | ⟨1, _⟩ => rfl
  | ⟨2, _⟩ => rfl

/-- One trip: the carried value plus the sum, over rows and steps, of the masked dot products. -/
theorem trip_ideal (v3 : Vec Ideal S1x1x512 .f32) (acc : FVec Ideal S1x1 .f32) (v27 : Vec Ideal S32x32x512 .f32)
    (v29 : Vec Ideal S32x32 .f32) (j : S1x1.Idx) :
    k0_pay3 v3 acc v27 v29 j
      = acc j + ∑ p : Fin 32, ∑ q : Fin 32, (∑ d : Fin 512, v27 (ix3 p q d) * v3 (ix3 0 0 d)) * v29 (ix2 p q) := by
  unfold k0_pay3
  refine (addf_apply _ _ j).trans ?_
  refine congrArg (fun t => acc j + t) ?_
  refine (cast_one _ _ j).trans ?_
  refine (red_row _ _ _ _).trans ?_
  refine Finset.sum_congr rfl fun p _ => ?_
  refine (cast_col _ _ p).trans ?_
  refine (red_step _ _ _ _ p).trans ?_
  refine Finset.sum_congr rfl fun q _ => ?_
  refine (mulf_apply _ _ _).trans ?_
  rw [shapeCast_self, shapeCast_shapeCast]
  refine congrArg (fun t => t * v29 (ix2 p q)) ?_
  refine (red_feat _ _ _ _ p q).trans ?_
  refine Finset.sum_congr rfl fun d _ => ?_
  refine (mulf_apply _ _ _).trans ?_
  exact congrArg (fun t => v27 (ix3 p q d) * t) (bcast_coef v3 _ p q d)

/-! ### The chunk a trip loads -/

/-- Trip k's data chunk at (p, q, d) is the data block at step 32 k + q. -/
theorem xck_apply (x0 : Vec Ideal S32x256x512 .f32) (k : Fin k0_t1_loop.trips) (k8 : Fin 8) (hk : k.val = k8.val)
    (p q : Fin 32) (d : Fin 512) : xck x0 k (ix3 p q d) = x0 (ix3 p (stepOf k8 q) d) := by
  show x0 ((Rect.unit (s := S32x256x512) (k0_off1 k) S32x32x512.size (k0_off1_inb k)).idx (ix3 p q d)) = _
  refine congrArg x0 (funext fun a => Fin.ext ?_)
  have e := k0_off1_eq k
  match a with
  | ⟨0, _⟩ =>
    show k0_off1 k 0 + 1 * p.val = p.val
    rw [e]; show 0 + 1 * p.val = p.val; omega
  | ⟨1, _⟩ =>
    show k0_off1 k 1 + 1 * q.val = 32 * k8.val + q.val
    rw [e]; show 32 * k.val + 1 * q.val = 32 * k8.val + q.val; omega
  | ⟨2, _⟩ =>
    show k0_off1 k 2 + 1 * d.val = d.val
    rw [e]; show 0 + 1 * d.val = d.val; omega

/-- Trip k's mask chunk at (p, q) is the mask block at step 32 k + q. -/
theorem mck_apply (x1 : Vec Ideal S32x256 .f32) (k : Fin k0_t1_loop.trips) (k8 : Fin 8) (hk : k.val = k8.val)
    (p q : Fin 32) : mck x1 k (ix2 p q) = x1 (ix2 p (stepOf k8 q)) := by
  show x1 ((Rect.unit (s := S32x256) (k0_off2 k) S32x32.size (k0_off2_inb k)).idx (ix2 p q)) = _
  refine congrArg x1 (funext fun a => Fin.ext ?_)
  have e := k0_off2_eq k
  match a with
  | ⟨0, _⟩ =>
    show k0_off2 k 0 + 1 * p.val = p.val
    rw [e]; show 0 + 1 * p.val = p.val; omega
  | ⟨1, _⟩ =>
    show k0_off2 k 1 + 1 * q.val = 32 * k8.val + q.val
    rw [e]; show 32 * k.val + 1 * q.val = 32 * k8.val + q.val; omega

/-- Before trip n (n ≤ 8) the carried value is the sum of the first n chunks. -/
theorem accAt_prefix (x0 : Vec Ideal S32x256x512 .f32) (x1 : Vec Ideal S32x256 .f32) (x2 : Vec Ideal S1x1x512 .f32)
    (j : S1x1.Idx) : ∀ n : ℕ, n ≤ 8 →
    accAt (F := Ideal) x0 x1 x2 n j = ∑ k ∈ Finset.range n, (if h : k < 8 then chunkVal x0 x1 x2 ⟨k, h⟩ else 0)
  | 0, _ => by
    rw [Finset.range_zero, Finset.sum_empty]
    exact pay2_zero j
  | n + 1, hn => by
    have hn8 : n < 8 := by omega
    have ht : n < k0_t1_loop.trips := by rw [loop_trips]; exact hn8
    rw [accAt, dif_pos ht, trip_ideal, accAt_prefix x0 x1 x2 j n (by omega), Finset.sum_range_succ, dif_pos hn8]
    refine congrArg (fun t => (∑ k ∈ Finset.range n, (if h : k < 8 then chunkVal x0 x1 x2 ⟨k, h⟩ else 0)) + t) ?_
    unfold chunkVal
    refine Finset.sum_congr rfl fun p _ => Finset.sum_congr rfl fun q _ => ?_
    rw [mck_apply x1 ⟨n, ht⟩ ⟨n, hn8⟩ rfl p q]
    refine congrArg (fun t => t * x1 (ix2 p (stepOf ⟨n, hn8⟩ q))) ?_
    refine Finset.sum_congr rfl fun d _ => ?_
    rw [xck_apply x0 ⟨n, ht⟩ ⟨n, hn8⟩ rfl p q d]

/-! ### The closing payload's mask word -/

/-- A coordinate below 2^32 tests equal to the zero word exactly when it is 0. -/
theorem eq0_word (n : ℕ) (hn : n < 2 ^ 32) :
    IntOp.cmpi .eq (BitVec.ofNat 32 n) 0#32 = if n = 0 then 1#1 else 0#1 := by
  by_cases h : n = 0
  · subst h; rfl
  · have hne : BitVec.ofNat 32 n ≠ 0#32 := by
      intro e
      have e' := congrArg BitVec.toNat e
      rw [BitVec.toNat_ofNat, Nat.mod_eq_of_lt hn] at e'
      exact h e'
    rw [if_neg h]
    simp only [IntOp.cmpi, beq_eq_false_iff_ne.mpr hne]
    rfl

/-- The mask of cell (0, 0), as an extended real: 1 there, 0 elsewhere. -/
theorem cell_word (r : Fin 8) (cc : Fin 128) :
    FloatOps.sitofp (F := Ideal) .f32
        ((IntOp.andi (IntOp.cmpi .eq (BitVec.ofNat 32 r.val) 0#32) (IntOp.cmpi .eq (BitVec.ofNat 32 cc.val) 0#32)).setWidth 32)
      = if r.val = 0 ∧ cc.val = 0 then (1 : EReal) else 0 := by
  have hr : r.val < 2 ^ 32 := by have := r.isLt; omega
  have hc : cc.val < 2 ^ 32 := by have := cc.isLt; omega
  rw [eq0_word r.val hr, eq0_word cc.val hc]
  have h11 : ((IntOp.andi 1#1 1#1).setWidth 32 : BitVec 32).toInt = 1 := by decide
  have h10 : ((IntOp.andi 1#1 0#1).setWidth 32 : BitVec 32).toInt = 0 := by decide
  have h01 : ((IntOp.andi 0#1 1#1).setWidth 32 : BitVec 32).toInt = 0 := by decide
  have h00 : ((IntOp.andi 0#1 0#1).setWidth 32 : BitVec 32).toInt = 0 := by decide
  by_cases h0 : r.val = 0 <;> by_cases h1 : cc.val = 0
  · rw [if_pos h0, if_pos h1, if_pos ⟨h0, h1⟩]
    show (((((IntOp.andi 1#1 1#1).setWidth 32 : BitVec 32).toInt : ℤ) : ℝ) : EReal) = 1
    rw [h11]; simp
  · rw [if_pos h0, if_neg h1, if_neg (fun h => h1 h.2)]
    show (((((IntOp.andi 1#1 0#1).setWidth 32 : BitVec 32).toInt : ℤ) : ℝ) : EReal) = 0
    rw [h10]; simp
  · rw [if_neg h0, if_pos h1, if_neg (fun h => h0 h.1)]
    show (((((IntOp.andi 0#1 1#1).setWidth 32 : BitVec 32).toInt : ℤ) : ℝ) : EReal) = 0
    rw [h01]; simp
  · rw [if_neg h0, if_neg h1, if_neg (fun h => h0 h.1)]
    show (((((IntOp.andi 0#1 0#1).setWidth 32 : BitVec 32).toInt : ℤ) : ℝ) : EReal) = 0
    rw [h00]; simp

/-- The [1, 1] value broadcast over the block reads its one entry everywhere. -/
theorem bcast_cell {α : Type} (v : S1x1.Idx → α) (h : S1x1.Broadcasts S8x128) (r : Fin 8) (cc : Fin 128) :
    broadcastTo S8x128 v h (ix2 r cc) = v (ix2 (0 : Fin 1) (0 : Fin 1)) := by
  refine broadcastTo_apply v h _ _ fun a => ?_
  match a with
  | ⟨0, _⟩ => rfl
  | ⟨1, _⟩ => rfl

/-- After the eight trips the carried value is the sum of the eight chunks. -/
theorem accAt_ideal (x0 : Vec Ideal S32x256x512 .f32) (x1 : Vec Ideal S32x256 .f32) (x2 : Vec Ideal S1x1x512 .f32) (j : S1x1.Idx) :
    accAt (F := Ideal) x0 x1 x2 8 j = ∑ k : Fin 8, chunkVal x0 x1 x2 k := by
  rw [accAt_prefix x0 x1 x2 j 8 (le_refl 8), Finset.sum_range]
  exact Finset.sum_congr rfl fun k _ => dif_pos k.isLt

/-- The closing payload: the block `y` plus the loop's sum `T` in cell (0, 0). -/
theorem pay4_ideal (T : FVec Ideal S1x1 .f32) (y : Vec Ideal S8x128 .f32) (r : Fin 8) (cc : Fin 128) :
    k0_pay4 (F := Ideal) T y (ix2 r cc) = y (ix2 r cc) + (if r.val = 0 ∧ cc.val = 0 then (1 : EReal) else 0) * T (ix2 0 0) := by
  unfold k0_pay4
  refine (addf_apply _ _ _).trans ?_
  rw [shapeCast_self, shapeCast_self]
  refine congrArg (fun t => y (ix2 r cc) + t) ?_
  refine (mulf_apply _ _ _).trans ?_
  rw [bcast_cell T _ r cc]
  refine congrArg (fun t => t * T (ix2 0 0)) ?_
  show FloatOps.sitofp (F := Ideal) .f32
    ((IntOp.andi (IntOp.cmpi .eq (iota .tc S8x128 32 [0] iota_S8x128_d0_w32 (ix2 r cc)) 0#32)
      (IntOp.cmpi .eq (iota .tc S8x128 32 [1] iota_S8x128_d1_w32 (ix2 r cc)) 0#32)).setWidth 32) = _
  rw [iota_single_apply, iota_single_apply]
  exact cell_word r cc

/-- The reset block is zero. -/
theorem pay1_ideal (j : S8x128.Idx) : k0_pay1 (F := Ideal) j = 0 := by
  unfold k0_pay1
  show Ideal.ofBits .f32 0x00000000#32 = 0
  exact Ideal.ofBits_zero_f32

end Cert.KernelIdeal.KIdeal

end
-- ==== Proof.KBlocks.lean ====
/-
  The blocks a grid point reads, entry by entry: point `(i, j)` reads rows `32 i … 32 i + 31` and steps
  `256 j … 256 j + 255` of the data array and of the mask, and the whole coefficient row.
-/
import proofs.«411001_j80410377716208_3_alg».proof.Proof.KArray

noncomputable section

namespace Cert.KernelIdeal.KBlocks

open Idealize.ShloMosaic Idealize.ShloMosaic.TcCoe Idealize.ShloMosaic.ValueIdx
open Idealize.SL Idealize.SL.Sem
open Cert.KernelIdeal Cert.KernelIdeal.Gen Cert.KernelIdeal.KArray

variable {F : FTy → Type} [FloatOps F]
variable (m : (ℓ : Loc nD τ sig) → Buf (Elt F) ℓ)

/-- The input windows' block indices at point `t`: (row block `t / 2`, time block `t % 2`); the coefficient row's never moves. -/
theorem idx_facts0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)
theorem idx_facts1 : ∀ t : Fin cfg0.N, win0_1.index t (0 : Fin 2) = t.val / 2 ∧ win0_1.index t (1 : Fin 2) = t.val % 2 :=
  (by decide +kernel : ∀ t : Fin grid0.N, _)
theorem idx_facts2 : ∀ t : Fin cfg0.N, win0_2.index t (0 : Fin 3) = 0 ∧ win0_2.index t (1 : Fin 3) = 0
    ∧ win0_2.index t (2 : Fin 3) = 0 :=
  (by decide +kernel : ∀ t : Fin grid0.N, _)

/-- An entry of the data block of point `(i, j)`. -/
theorem xblk_at (c : Dev nD) (i : Fin 4) (j : Fin 2) (p : Fin 32) (s : Fin 256) (d : Fin 512) :
    xblk m c (pt i j) (ix3 p s d)
      = V m c main_arg0 (ix3 (⟨32 * i.val + p.val, by omega⟩ : Fin 128) (⟨256 * j.val + s.val, by omega⟩ : Fin 512) d) := by
  obtain ⟨e0, e1, e2⟩ := idx_facts0 (pt i j)
  have ev : (pt i j).val = 2 * i.val + j.val := rfl
  show V m c main_arg0 (((cfg0.win 0).blk (pt i j)).view.emb (ix3 p s d)) = _
  have h : ((cfg0.win 0).blk (pt i j)).view.emb (ix3 p s d)
      = ix3 (⟨32 * i.val + p.val, by omega⟩ : Fin 128) (⟨256 * j.val + s.val, by omega⟩ : Fin 512) d := by
    funext a; apply Fin.ext
    match a with
    | ⟨0, _⟩ => show win0_0.index (pt i j) (0 : Fin 3) * 32 + 1 * p.val = 32 * i.val + p.val; rw [e0, ev]; omega
    | ⟨1, _⟩ => show win0_0.index (pt i j) (1 : Fin 3) * 256 + 1 * s.val = 256 * j.val + s.val; rw [e1, ev]; omega
    | ⟨2, _⟩ => show win0_0.index (pt i j) (2 : Fin 3) * 512 + 1 * d.val = d.val; rw [e2]; omega
  rw [h]

/-- An entry of the mask block of point `(i, j)`. -/
theorem mblk_at (c : Dev nD) (i : Fin 4) (j : Fin 2) (p : Fin 32) (s : Fin 256) :
    mblk m c (pt i j) (ix2 p s)
      = V m c main_v105 (ix2 (⟨32 * i.val + p.val, by omega⟩ : Fin 128) (⟨256 * j.val + s.val, by omega⟩ : Fin 512)) := by
  obtain ⟨e0, e1⟩ := idx_facts1 (pt i j)
  have ev : (pt i j).val = 2 * i.val + j.val := rfl
  show V m c main_v105 (((cfg0.win 1).blk (pt i j)).view.emb (ix2 p s)) = _
  have h : ((cfg0.win 1).blk (pt i j)).view.emb (ix2 p s)
      = ix2 (⟨32 * i.val + p.val, by omega⟩ : Fin 128) (⟨256 * j.val + s.val, by omega⟩ : Fin 512) := by
    funext a; apply Fin.ext
    match a with
    | ⟨0, _⟩ => show win0_1.index (pt i j) (0 : Fin 2) * 32 + 1 * p.val = 32 * i.val + p.val; rw [e0, ev]; omega
    | ⟨1, _⟩ => show win0_1.index (pt i j) (1 : Fin 2) * 256 + 1 * s.val = 256 * j.val + s.val; rw [e1, ev]; omega
  rw [h]

/-- An entry of the coefficient row, the same at every point. -/
theorem vblk_at (c : Dev nD) (t : Fin cfg0.N) (d : Fin 512) :
    vblk m c t (ix3 0 0 d) = V m c main_v107 (ix3 0 0 d) := by
  obtain ⟨e0, e1, e2⟩ := idx_facts2 t
  show V m c main_v107 (((cfg0.win 2).blk t).view.emb (ix3 0 0 d)) = _
  have h : ((cfg0.win 2).blk t).view.emb (ix3 (0 : Fin 1) (0 : Fin 1) d) = ix3 (0 : Fin 1) (0 : Fin 1) d := by
    funext a; apply Fin.ext
    match a with
    | ⟨0, _⟩ => show win0_2.index t (0 : Fin 3) * 1 + 1 * 0 = 0; rw [e0]
    | ⟨1, _⟩ => show win0_2.index t (1 : Fin 3) * 1 + 1 * 0 = 0; rw [e1]
    | ⟨2, _⟩ => show win0_2.index t (2 : Fin 3) * 512 + 1 * d.val = d.val; rw [e2]; omega
  rw [h]

end Cert.KernelIdeal.KBlocks

end
-- ==== Proof.Spec.lean ====
/-
  The mathematics of the certificate, free of any program text.

  Notation.  `x p t d` is the data entry of sequence `p`, time step `t`, feature `d`;  `a d = log (e d + ε)` and
  `b d = log (1 - e d + ε)` are the two emission logarithms;  `μ p t ∈ {0, 1}` says whether step `t` lies inside
  sequence `p` (`t < ℓ p`);  `κ0`, `κt` are the divergence at the first step and at every later step.

  The reference averages, over the valid steps,
      rec  = (∑ p t, (-(∑ d, x·a + (1 - x)·b)) · μ) / (∑ p t, μ),        kl = (∑ p t, (t = 0 ? κ0 : κt) · μ) / (∑ p t, μ).
  The kernel streams `x` once: the grid point `(i, j)` sums, chunk by chunk, `(∑ d, x · (a - b)) · μ` over rows
  `32 i … 32 i + 31` and steps `256 j … 256 j + 255`, eight chunks of 32 steps each, and the host finishes with
      rec  = (-(S)) / (∑ μ) - ∑ d, b d,                                    kl = (κ0 · n₀ + κt · n₁) / (∑ μ),
  where `n₀` counts the sequences with a first step and `n₁ = ∑ p, max (ℓ p - 1) 0` the later steps.
  The two agree because `x·a + (1 - x)·b = x·(a - b) + b` and `∑ p t, μ p t · (∑ d, b d) = (∑ d, b d) · ∑ μ`; when no step is
  valid both quotients have a zero divisor and take the same conventional value.
-/
import Idealize.ShloMosaic.PureOps.Ideal
import Idealize.ShloMosaic.Lib.ValueIdx

noncomputable section

namespace Cert.Spec

open Idealize.ShloMosaic
open scoped BigOperators

/-- Sequence `32 i + p`: local row `p` of the kernel's row block `i`. -/
def row (i : Fin 4) (p : Fin 32) : Fin 128 := ⟨32 * i.val + p.val, by omega⟩

/-- Time step `256 j + 32 k + q`: local step `q` of chunk `k` of the kernel's time block `j`. -/
def col (j : Fin 2) (k : Fin 8) (q : Fin 32) : Fin 512 := ⟨256 * j.val + 32 * k.val + q.val, by omega⟩

section Rec

variable (x : Fin 128 → Fin 512 → Fin 512 → EReal) (a b : Fin 512 → EReal) (μ : Fin 128 → Fin 512 → EReal)

/-- One chunk of one grid point: 32 rows by 32 steps of masked dot products with `a - b`. -/
def chunk (i : Fin 4) (j : Fin 2) (k : Fin 8) : EReal :=
  ∑ p : Fin 32, ∑ q : Fin 32, (∑ d : Fin 512, x (row i p) (col j k q) d * (a d - b d)) * μ (row i p) (col j k q)

/-- What grid point `(i, j)` adds to its row block's cell: its eight chunks. -/
def total (i : Fin 4) (j : Fin 2) : EReal := ∑ k : Fin 8, chunk x a b μ i j k

/-- The kernel's masked dot-product sum. -/
def S : EReal := ∑ i : Fin 4, ∑ j : Fin 2, total x a b μ i j

/-- `∑ d, log (1 - e d + ε)`. -/
def cst : EReal := ∑ d : Fin 512, b d

/-- The number of valid steps. -/
def den : EReal := ∑ p : Fin 128, ∑ t : Fin 512, μ p t

/-- The kernel's reconstruction loss. -/
def recK : EReal := Ideal.div (-(S x a b μ)) (den μ) - cst b

/-- The reference's reconstruction loss. -/
def recR : EReal :=
  Ideal.div (∑ p : Fin 128, ∑ t : Fin 512, (-(∑ d : Fin 512, (x p t d * a d + (1 - x p t d) * b d))) * μ p t) (den μ)

end Rec

section Kl

variable (κ0 κt : EReal) (ℓ : Fin 128 → ℤ) (μ : Fin 128 → Fin 512 → EReal)

/-- How many sequences have a first step. -/
def hasT0 : EReal := ∑ p : Fin 128, (if 1 ≤ ℓ p then (1 : EReal) else 0)

/-- How many later steps there are in all. -/
def tailSteps : EReal := ∑ p : Fin 128, max ((((ℓ p : ℤ) : ℝ) : EReal) - 1) 0

/-- The kernel's divergence loss. -/
def klK : EReal := Ideal.div (κ0 * hasT0 ℓ + κt * tailSteps ℓ) (den μ)

/-- The reference's divergence loss. -/
def klR : EReal := Ideal.div (∑ p : Fin 128, ∑ t : Fin 512, (if t.val = 0 then κ0 else κt) * μ p t) (den μ)

end Kl

/-- The validity mask as a function of the lengths. -/
def maskOf (ℓ : Fin 128 → ℤ) (p : Fin 128) (t : Fin 512) : EReal := if (t.val : ℤ) < ℓ p then 1 else 0

end Cert.Spec

end
-- ==== Proof.Names.lean ====
/-
  Names for the quantities both programs compute from the arguments by the same operations, each read at an index:
  the data `x`, the lengths `ℓ` (as integers), the two emission logarithms `a = log (e + ε)`, `b = log (1 - e + ε)`,
  the two divergences `κ0`, `κt` and the validity mask `μ`.
-/
import proofs.«411001_j80410377716208_3_alg».proof.Proof.Gen.ReferenceIdeal.Read
import proofs.«411001_j80410377716208_3_alg».proof.Proof.Spec
import Idealize.ShloMosaic.Lib.ValueIdx

noncomputable section

namespace Cert.Names

open Idealize.ShloMosaic Idealize.ShloMosaic.ValueIdx Cert.ReferenceIdeal Cert.ReferenceIdeal.Read

/-- The data array by coordinates. -/
def xOf (X : FVec Ideal S128x512x512 .f32) : Fin 128 → Fin 512 → Fin 512 → EReal := fun p t d => X (ix3 p t d)

/-- The lengths as integers (the words read signed). -/
def lenOf (L : IVec S128 32) : Fin 128 → ℤ := fun p => (L (ix1 p)).toInt

/-- `log (e d + ε)`, where `e = softmax q · sigmoid E`. -/
def aOf (A3 : FVec Ideal S64x512 .f32) (A5 : FVec Ideal S1x64 .f32) : Fin 512 → EReal :=
  fun d => val_main_v81 (F := Ideal) A3 A5 (ix2 0 d)

/-- `log (1 - e d + ε)`. -/
def bOf (A3 : FVec Ideal S64x512 .f32) (A5 : FVec Ideal S1x64 .f32) : Fin 512 → EReal :=
  fun d => val_main_v86 (F := Ideal) A3 A5 (ix2 0 d)

/-- The divergence of the state distribution from the initial distribution. -/
def κ0Of (A4 : FVec Ideal S64 .f32) (A5 : FVec Ideal S1x64 .f32) : EReal := val_main_v30 (F := Ideal) A4 A5 (ix1 0)

/-- The divergence of the state distribution from the one-step prediction. -/
def κtOf (A2 : FVec Ideal S64x64 .f32) (A5 : FVec Ideal S1x64 .f32) : EReal := val_main_v65 (F := Ideal) A2 A5 (ix1 0)

/-- The validity mask by coordinates. -/
def μOf (L : IVec S128 32) : Fin 128 → Fin 512 → EReal := fun p t => val_main_v103 (F := Ideal) L (ix2 p t)

end Cert.Names

end
-- ==== Proof.KPrefix.lean ====
/-
  What the host operations before the kernel leave in the buffers the kernel and the closing host operations read,
  in the names both programs share: the mask, the coefficient row `a - b`, the number of valid steps, `∑ b` and the
  divergence sum `κ0 · n₀ + κt · n₁`.
-/
import proofs.«411001_j80410377716208_3_alg».proof.Proof.Gen.KernelIdeal.Frame
import proofs.«411001_j80410377716208_3_alg».proof.Proof.Names
import Idealize.ShloMosaic.Lib.StableHlo.Run
import Idealize.ShloMosaic.Lib.Tactic
import Idealize.ShloMosaic.Lib.IdealHost

noncomputable section

namespace Cert.KernelIdeal.KPrefix

open Idealize.ShloMosaic Idealize.ShloMosaic.TcCoe Idealize.ShloMosaic.ValueIdx Idealize.SL.Sem
open Cert.KernelIdeal Cert.KernelIdeal.Gen Cert.Names
open scoped BigOperators

variable (m : (ℓ : Loc nD τ sig) → Buf (Elt Ideal) ℓ)

/-! ## Words, constants, sums and layouts -/

/-- The zero word of an f32 constant is the extended real zero. -/
theorem zero_f32 : Ideal.ofBits .f32 0x00000000#32 = (0 : EReal) := Ideal.ofBits_zero_f32

/-- The word of the f32 constant 1.0 is the extended real one. -/
theorem one_f32 : Ideal.ofBits .f32 0x3F800000#32 = (1 : EReal) := Ideal.ofBits_one_f32

/-- A one-bit word converted to a float, unsigned, is 1 for a set bit and 0 otherwise. -/
theorem uitofp_ofBool (b : Bool) :
    FloatOps.uitofp (F := Ideal) .f32 (BitVec.ofBool b) = if b = true then (1 : EReal) else 0 := by
  cases b
  · show (((0 : ℕ) : ℝ) : EReal) = _
    simp
  · show (((1 : ℕ) : ℝ) : EReal) = _
    simp

/-- A signed "at least one" on a length word, as 0 / 1, compares the length read signed with 1. -/
theorem sge_one (w : BitVec 32) :
    FloatOps.uitofp (F := Ideal) .f32 (IntOp.cmpi .sge w 1#32) = if 1 ≤ w.toInt then (1 : EReal) else 0 := by
  unfold IntOp.cmpi
  rw [uitofp_ofBool]
  simp only [BitVec.sle, decide_eq_true_eq]
  rw [show (1#32 : BitVec 32).toInt = 1 by decide]

/-- A sum over the indices of a 128-vector is the sum over its coordinate. -/
theorem sum_idx1_128 {M : Type*} [AddCommMonoid M] (f : (⟨1, ![128]⟩ : Shape).Idx → M) :
    ∑ i, f i = ∑ p : Fin 128, f (ix1 p) :=
  Fintype.sum_equiv ⟨fun i => i 0, ix1, fun i => (eq_ix1 i).symm, fun _ => rfl⟩ _ _ fun i => congrArg f (eq_ix1 i)

/-- The one index of a one-element vector and the one index of a scalar sit at the same row-major position. -/
theorem pos_S1_S_ (i : S_.Idx) : (S1.rowMajor (ix1 (0 : Fin 1))).val = (S_.rowMajor i).val := by
  rw [Shape.rowMajor_val_one]
  exact (Shape.rowMajorPi_zero _ i).symm

/-- The number of sequences with a first step, as the program sums it. -/
theorem hasT0_read (L : IVec S128 32) (i : S_.Idx) :
    Host.reduceAdd (F := Ideal)
        (uitofp (F := Ideal) .f32 (cmpi .sge L (broadcastInDim S128 ![] bcast_S_S128 (constantI S_ 32 1#32))))
        (constant (F := Ideal) S_ .f32 0x00000000#32) reducesTo_S128_S_d0 h_S_ i
      = Spec.hasT0 (lenOf L) := by
  rw [hostReduceAdd_apply, Ideal.hostReduceAdd_total reducesTo_S128_S_d0 (fun b => b.elim0), constant_apply, zero_f32,
    zero_add, sum_idx1_128]
  refine Finset.sum_congr rfl fun p _ => ?_
  show FloatOps.uitofp (F := Ideal) .f32
      (IntOp.cmpi .sge (L (ix1 p)) (broadcastInDim S128 ![] bcast_S_S128 (constantI S_ 32 1#32) (ix1 p))) = _
  rw [broadcastInDim_scalar_apply]
  exact sge_one (L (ix1 p))

/-- The number of later steps, as the program sums it. -/
theorem tail_read (L : IVec S128 32) (i : S_.Idx) :
    Host.reduceAdd (F := Ideal)
        (maximumf (F := Ideal)
          (subf (F := Ideal) (sitofp (F := Ideal) .f32 L)
            (broadcastInDim S128 ![] bcast_S_S128 (constant (F := Ideal) S_ .f32 0x3F800000#32)))
          (broadcastInDim S128 ![] bcast_S_S128 (constant (F := Ideal) S_ .f32 0x00000000#32)))
        (constant (F := Ideal) S_ .f32 0x00000000#32) reducesTo_S128_S_d0 h_S_ i
      = Spec.tailSteps (lenOf L) := by
  rw [hostReduceAdd_apply, Ideal.hostReduceAdd_total reducesTo_S128_S_d0 (fun b => b.elim0), constant_apply, zero_f32,
    zero_add, sum_idx1_128]
  refine Finset.sum_congr rfl fun p _ => ?_
  rw [maximumf_apply, subf_apply, broadcastInDim_scalar_apply, broadcastInDim_scalar_apply, constant_apply,
    constant_apply, zero_f32, one_f32]
  rfl

/-! ## The buffers as terms over the reference's stages -/

set_option maxHeartbeats 4000000 in
/-- The coefficient row's buffer: the difference of the two logarithm rows, laid out as one row of one plane. -/
theorem v107_term (c : Dev nD) :
    @Eq (FVec Ideal S1x1x512 .f32) (V m c main_v107)
      (shapeCast S1x1x512 (shapeCast S512
        (subf (F := Ideal)
          (Cert.ReferenceIdeal.Read.val_main_v81 (F := Ideal) (m ((c : Thread nD τ).loc main_arg3)) (m ((c : Thread nD τ).loc main_arg5)))
          (Cert.ReferenceIdeal.Read.val_main_v86 (F := Ideal) (m ((c : Thread nD τ).loc main_arg3)) (m ((c : Thread nD τ).loc main_arg5))))
        shapeCasts_S1x512_S512) shapeCasts_S512_S1x1x512) := by
  show StableHlo.after hostOps0 (fun b => m (c, b)) (Proc.devRef .tc main_v107) = _
  after_results_simp
  rfl

set_option maxHeartbeats 4000000 in
/-- The buffer of the sum of the second logarithm row. -/
theorem v98_term (c : Dev nD) :
    @Eq (FVec Ideal S_ .f32) (V m c main_v98)
      (Host.reduceAdd (F := Ideal)
        (Cert.ReferenceIdeal.Read.val_main_v86 (F := Ideal) (m ((c : Thread nD τ).loc main_arg3)) (m ((c : Thread nD τ).loc main_arg5)))
        (constant (F := Ideal) S_ .f32 0x00000000#32) reducesTo_S1x512_S_d0_1 h_S_) := by
  show StableHlo.after hostOps0 (fun b => m (c, b)) (Proc.devRef .tc main_v98) = _
  after_results_simp
  rfl

set_option maxHeartbeats 4000000 in
/-- The buffer of the divergence sum: each divergence times its count of steps. -/
theorem v80_term (c : Dev nD) :
    @Eq (FVec Ideal S_ .f32) (V m c main_v80)
      (addf (F := Ideal)
        (mulf (F := Ideal)
          (shapeCast S_ (Cert.ReferenceIdeal.Read.val_main_v30 (F := Ideal) (m ((c : Thread nD τ).loc main_arg4)) (m ((c : Thread nD τ).loc main_arg5))) shapeCasts_S1_S_)
          (Host.reduceAdd (F := Ideal)
            (uitofp (F := Ideal) .f32 (cmpi .sge (m ((c : Thread nD τ).loc main_arg1) : IVec S128 32) (broadcastInDim S128 ![] bcast_S_S128 (constantI S_ 32 1#32))))
            (constant (F := Ideal) S_ .f32 0x00000000#32) reducesTo_S128_S_d0 h_S_))
        (mulf (F := Ideal)
          (shapeCast S_ (Cert.ReferenceIdeal.Read.val_main_v65 (F := Ideal) (m ((c : Thread nD τ).loc main_arg2)) (m ((c : Thread nD τ).loc main_arg5))) shapeCasts_S1_S_)
          (Host.reduceAdd (F := Ideal)
            (maximumf (F := Ideal)
              (subf (F := Ideal) (sitofp (F := Ideal) .f32 (m ((c : Thread nD τ).loc main_arg1) : IVec S128 32))
                (broadcastInDim S128 ![] bcast_S_S128 (constant (F := Ideal) S_ .f32 0x3F800000#32)))
              (broadcastInDim S128 ![] bcast_S_S128 (constant (F := Ideal) S_ .f32 0x00000000#32)))
            (constant (F := Ideal) S_ .f32 0x00000000#32) reducesTo_S128_S_d0 h_S_))) := by
  show StableHlo.after hostOps0 (fun b => m (c, b)) (Proc.devRef .tc main_v80) = _
  after_results_simp
  rfl

/-! ## The five buffers -/

set_option maxHeartbeats 4000000 in
/-- The kernel's mask operand is the reference's mask stage of the lengths. -/
theorem V_mask (c : Dev nD) :
    V m c main_v105 = Cert.ReferenceIdeal.Read.val_main_v103 (F := Ideal) (m ((c : Thread nD τ).loc main_arg1)) := by
  show StableHlo.after hostOps0 (fun b => m (c, b)) (Proc.devRef .tc main_v105) = _
  after_results_simp
  rfl

/-- The kernel's coefficient row is `a - b`. -/
theorem V_vrow (c : Dev nD) (d : Fin 512) :
    V m c main_v107 (ix3 0 0 d)
      = aOf (m ((c : Thread nD τ).loc main_arg3)) (m ((c : Thread nD τ).loc main_arg5)) d
        - bOf (m ((c : Thread nD τ).loc main_arg3)) (m ((c : Thread nD τ).loc main_arg5)) d := by
  refine (congrFun (v107_term m c) (ix3 0 0 d)).trans ?_
  rw [shapeCast_apply _ shapeCasts_S512_S1x1x512 (ix3 0 0 d) (ix1 d) (by
        rw [Shape.rowMajor_val_one, Shape.rowMajor_val_three]
        show d.val = (0 * 1 + 0) * 512 + d.val
        omega),
    shapeCast_apply _ shapeCasts_S1x512_S512 (ix1 d) (ix2 0 d) (by
        rw [Shape.rowMajor_val_two, Shape.rowMajor_val_one]
        show 0 * 512 + d.val = d.val
        omega)]
  rfl

set_option maxHeartbeats 4000000 in
/-- The divisor is the reference's: the number of valid steps. -/
theorem V_den (c : Dev nD) :
    V m c main_v106 = Cert.ReferenceIdeal.Read.val_main_v104 (F := Ideal) (m ((c : Thread nD τ).loc main_arg1)) := by
  show StableHlo.after hostOps0 (fun b => m (c, b)) (Proc.devRef .tc main_v106) = _
  after_results_simp
  rfl

/-- `∑ d, b d`. -/
theorem V_cst (c : Dev nD) (i : S_.Idx) :
    V m c main_v98 i = Spec.cst (bOf (m ((c : Thread nD τ).loc main_arg3)) (m ((c : Thread nD τ).loc main_arg5))) := by
  refine (congrFun (v98_term m c) i).trans ?_
  rw [hostReduceAdd_apply, Ideal.hostReduceAdd_total reducesTo_S1x512_S_d0_1 (fun b => b.elim0), constant_apply, zero_f32,
    zero_add, sum_idx2, Fin.sum_univ_one]
  rfl

/-- `κ0 · n₀ + κt · n₁`. -/
theorem V_klsum (c : Dev nD) (i : S_.Idx) :
    V m c main_v80 i
      = κ0Of (m ((c : Thread nD τ).loc main_arg4)) (m ((c : Thread nD τ).loc main_arg5)) * Spec.hasT0 (lenOf (m ((c : Thread nD τ).loc main_arg1)))
        + κtOf (m ((c : Thread nD τ).loc main_arg2)) (m ((c : Thread nD τ).loc main_arg5)) * Spec.tailSteps (lenOf (m ((c : Thread nD τ).loc main_arg1))) := by
  refine (congrFun (v80_term m c) i).trans ?_
  rw [addf_apply, mulf_apply, mulf_apply, hasT0_read, tail_read,
    shapeCast_apply _ shapeCasts_S1_S_ i (ix1 (0 : Fin 1)) (pos_S1_S_ i),
    shapeCast_apply _ shapeCasts_S1_S_ i (ix1 (0 : Fin 1)) (pos_S1_S_ i)]
  rfl

end Cert.KernelIdeal.KPrefix

end
-- ==== Proof.KSum.lean ====
/-
  The sum of the kernel's output array is the masked dot-product sum `S` of the specification: each row block's
  cell (0, 0) holds its two grid points' loop sums, every other entry is zero, and a grid point's loop sum is the sum of
  its eight chunks of `(∑ d, x · (a - b)) · μ`.
-/
import proofs.«411001_j80410377716208_3_alg».proof.Proof.KIdeal
import proofs.«411001_j80410377716208_3_alg».proof.Proof.KBlocks
import proofs.«411001_j80410377716208_3_alg».proof.Proof.KPrefix
import proofs.«411001_j80410377716208_3_alg».proof.Proof.Names

noncomputable section

namespace Cert.KernelIdeal.KSum

open Idealize.ShloMosaic Idealize.ShloMosaic.TcCoe Idealize.ShloMosaic.ValueIdx Idealize.SL.Sem
open Cert.KernelIdeal Cert.KernelIdeal.Gen Cert.KernelIdeal.KBody Cert.KernelIdeal.KArray Cert.KernelIdeal.KIdeal
  Cert.KernelIdeal.KBlocks Cert.KernelIdeal.KPrefix Cert.Names
open scoped BigOperators

variable (m : (ℓ : Loc nD τ sig) → Buf (Elt Ideal) ℓ)

/-! ### A grid point's loop sum is the specification's total -/

/-- Step `32 k + q` of time block `j` is the specification's step `256 j + 32 k + q`. -/
theorem col_eq (j : Fin 2) (k : Fin 8) (q : Fin 32) :
    (⟨256 * j.val + (stepOf k q).val, by have := (stepOf k q).isLt; omega⟩ : Fin 512) = Spec.col j k q :=
  Fin.ext (by show 256 * j.val + (32 * k.val + q.val) = 256 * j.val + 32 * k.val + q.val; omega)

/-- An entry of the data block of point `(i, j)`, in the specification's coordinates. -/
theorem x_entry (c : Dev nD) (i : Fin 4) (j : Fin 2) (k : Fin 8) (p q : Fin 32) (d : Fin 512) :
    xblk m c (pt i j) (ix3 p (stepOf k q) d)
      = xOf (m ((c : Thread nD τ).loc main_arg0)) (Spec.row i p) (Spec.col j k q) d := by
  rw [xblk_at, V_main_arg0, col_eq]
  rfl

/-- An entry of the mask block of point `(i, j)`, in the specification's coordinates. -/
theorem m_entry (c : Dev nD) (i : Fin 4) (j : Fin 2) (k : Fin 8) (p q : Fin 32) :
    mblk m c (pt i j) (ix2 p (stepOf k q))
      = μOf (m ((c : Thread nD τ).loc main_arg1)) (Spec.row i p) (Spec.col j k q) := by
  rw [mblk_at, V_mask, col_eq]
  rfl

/-- An entry of the coefficient row: `a d - b d`. -/
theorem v_entry (c : Dev nD) (t : Fin cfg0.N) (d : Fin 512) :
    vblk m c t (ix3 0 0 d)
      = aOf (m ((c : Thread nD τ).loc main_arg3)) (m ((c : Thread nD τ).loc main_arg5)) d
        - bOf (m ((c : Thread nD τ).loc main_arg3)) (m ((c : Thread nD τ).loc main_arg5)) d := by
  rw [vblk_at, V_vrow]

/-- The loop sum of grid point `(i, j)` is the sum of its eight chunks. -/
theorem T_total (c : Dev nD) (i : Fin 4) (j : Fin 2) :
    KArray.T (F := Ideal) m c (pt i j) (ix2 0 0)
      = Spec.total (xOf (m ((c : Thread nD τ).loc main_arg0)))
          (aOf (m ((c : Thread nD τ).loc main_arg3)) (m ((c : Thread nD τ).loc main_arg5)))
          (bOf (m ((c : Thread nD τ).loc main_arg3)) (m ((c : Thread nD τ).loc main_arg5)))
          (μOf (m ((c : Thread nD τ).loc main_arg1))) i j := by
  unfold KArray.T
  rw [accAt_ideal]
  unfold Spec.total
  refine Finset.sum_congr rfl fun k _ => ?_
  unfold chunkVal Spec.chunk
  refine Finset.sum_congr rfl fun p _ => Finset.sum_congr rfl fun q _ => ?_
  have hsum : ∑ d : Fin 512, xblk m c (pt i j) (ix3 p (stepOf k q) d) * vblk m c (pt i j) (ix3 0 0 d)
      = ∑ d : Fin 512, xOf (m ((c : Thread nD τ).loc main_arg0)) (Spec.row i p) (Spec.col j k q) d
          * (aOf (m ((c : Thread nD τ).loc main_arg3)) (m ((c : Thread nD τ).loc main_arg5)) d
            - bOf (m ((c : Thread nD τ).loc main_arg3)) (m ((c : Thread nD τ).loc main_arg5)) d) :=
    Finset.sum_congr rfl fun d _ => by rw [x_entry, v_entry]
  rw [hsum, m_entry]

/-! ### The entries of the output array -/

/-- Entry `(r, cc)` of row block `i`: the two loop sums in cell (0, 0), zero elsewhere. -/
theorem Gat_ideal (c : Dev nD) (i : Fin 4) (r : Fin 8) (cc : Fin 128) :
    Gat (F := Ideal) m c i r cc
      = (0 + (if r.val = 0 ∧ cc.val = 0 then (1 : EReal) else 0) * KArray.T (F := Ideal) m c (pt i 0) (ix2 0 0))
        + (if r.val = 0 ∧ cc.val = 0 then (1 : EReal) else 0) * KArray.T (F := Ideal) m c (pt i 1) (ix2 0 0) := by
  unfold Gat
  rw [pay4_ideal, pay4_ideal, pay1_ideal]

/-- Away from cell (0, 0) the entry is zero. -/
theorem Gat_off (c : Dev nD) (i : Fin 4) (r : Fin 8) (cc : Fin 128) (h : ¬(r.val = 0 ∧ cc.val = 0)) :
    Gat (F := Ideal) m c i r cc = 0 := by
  rw [Gat_ideal, if_neg h, zero_mul, zero_mul, add_zero, add_zero]

/-- Cell (0, 0) holds the two loop sums. -/
theorem Gat_cell (c : Dev nD) (i : Fin 4) :
    Gat (F := Ideal) m c i 0 0 = KArray.T (F := Ideal) m c (pt i 0) (ix2 0 0) + KArray.T (F := Ideal) m c (pt i 1) (ix2 0 0) := by
  rw [Gat_ideal, if_pos ⟨rfl, rfl⟩, one_mul, one_mul, zero_add]

/-- A row block sums to its two loop sums. -/
theorem sum_block (c : Dev nD) (i : Fin 4) :
    ∑ r : Fin 8, ∑ cc : Fin 128, Gat (F := Ideal) m c i r cc
      = KArray.T (F := Ideal) m c (pt i 0) (ix2 0 0) + KArray.T (F := Ideal) m c (pt i 1) (ix2 0 0) := by
  rw [Finset.sum_eq_single (0 : Fin 8), Finset.sum_eq_single (0 : Fin 128), Gat_cell]
  · intro cc _ hcc
    exact Gat_off m c i 0 cc (fun h => hcc (Fin.ext h.2))
  · intro h; exact absurd (Finset.mem_univ _) h
  · intro r _ hr
    exact Finset.sum_eq_zero fun cc _ => Gat_off m c i r cc (fun h => hr (Fin.ext h.1))
  · intro h; exact absurd (Finset.mem_univ _) h

/-! ### The whole array -/

/-- The 32 rows are four blocks of eight. -/
theorem sum_rows {M : Type*} [AddCommMonoid M] (h : Fin 32 → M) :
    ∑ ρ : Fin 32, h ρ = ∑ i : Fin 4, ∑ r : Fin 8, h ⟨8 * i.val + r.val, by omega⟩ := by
  refine Eq.trans ?_ (Fintype.sum_prod_type' (fun (i : Fin 4) (r : Fin 8) => h ⟨8 * i.val + r.val, by omega⟩))
  refine (Fintype.sum_equiv (finProdFinEquiv : Fin 4 × Fin 8 ≃ Fin (4 * 8)) _ _ (fun ir => ?_)).symm
  congr 1
  apply Fin.ext
  show 8 * ir.1.val + ir.2.val = ir.2.val + 8 * ir.1.val
  omega

/-- The output array sums to `S`. -/
theorem sum_G (c : Dev nD) :
    ∑ jj : S32x128.Idx, G (F := Ideal) m c jj
      = Spec.S (xOf (m ((c : Thread nD τ).loc main_arg0)))
          (aOf (m ((c : Thread nD τ).loc main_arg3)) (m ((c : Thread nD τ).loc main_arg5)))
          (bOf (m ((c : Thread nD τ).loc main_arg3)) (m ((c : Thread nD τ).loc main_arg5)))
          (μOf (m ((c : Thread nD τ).loc main_arg1))) := by
  refine (sum_idx2 (n0 := 32) (n1 := 128) (G (F := Ideal) m c)).trans ?_
  rw [sum_rows]
  unfold Spec.S
  refine Finset.sum_congr rfl fun i _ => ?_
  rw [Fin.sum_univ_two, ← T_total, ← T_total, ← sum_block]
  refine Finset.sum_congr rfl fun r _ => Finset.sum_congr rfl fun cc _ => ?_
  unfold G
  exact Gat_congr m c (by show (8 * i.val + r.val) / 8 = i.val; omega)
    (by show (8 * i.val + r.val) % 8 = r.val; omega) rfl

end Cert.KernelIdeal.KSum

end
-- ==== Proof.RefRead.lean ====
/-
  The reference's two results, read off its run one operation at a time, are the Spec's `recR` and `klR` of the named
  quantities; and the mask is the lengths'.
-/
import proofs.«411001_j80410377716208_3_alg».proof.Proof.Names
import Idealize.ShloMosaic.Lib.IdealHost
import Idealize.ShloMosaic.Lib.StableHlo.Predicate

noncomputable section

namespace Cert.RefRead

open Idealize.ShloMosaic Idealize.ShloMosaic.ValueIdx Cert.ReferenceIdeal Cert.ReferenceIdeal.Read Cert.Names
open scoped BigOperators

/-! ## Words and constants -/

/-- The zero word of an f32 constant is the extended real zero. -/
theorem zero_f32 : FloatOps.ofBits (F := Ideal) .f32 0x00000000#32 = (0 : EReal) := Ideal.ofBits_zero_f32

/-- The word of the f32 constant 1.0 is the extended real one. -/
theorem one_f32 : FloatOps.ofBits (F := Ideal) .f32 0x3F800000#32 = (1 : EReal) := Ideal.ofBits_one_f32

/-- A one-bit word converted to a float, unsigned, is 1 for a set bit and 0 otherwise. -/
theorem uitofp_ofBool (c : Bool) :
    FloatOps.uitofp (F := Ideal) .f32 (BitVec.ofBool c) = if c = true then (1 : EReal) else 0 := by
  cases c
  · show (((0 : ℕ) : ℝ) : EReal) = _
    simp
  · show (((1 : ℕ) : ℝ) : EReal) = _
    simp

/-- A signed less-than of a step index below 512 with any word compares the index with the word read signed. -/
theorem slt_step (t : Fin 512) (w : BitVec 32) :
    FloatOps.uitofp (F := Ideal) .f32 (IntOp.cmpi .slt (BitVec.ofNat 32 t.val) w)
      = if (t.val : ℤ) < w.toInt then (1 : EReal) else 0 := by
  have ht : t.val < 2 ^ 31 := lt_trans t.isLt (by norm_num)
  unfold IntOp.cmpi
  rw [uitofp_ofBool]
  simp only [BitVec.slt, StableHlo.Predicate.toInt_ofNat_small t.val ht, decide_eq_true_eq]

/-- A select on "the step index is the zero word" is the choice on "the step is 0". -/
theorem select_step0 {α : Type} (t : Fin 512) (A B : α) :
    Scalar.select (IntOp.cmpi .eq (BitVec.ofNat 32 t.val) 0#32) A B = if t.val = 0 then A else B := by
  unfold Scalar.select
  refine if_congr ?_ rfl rfl
  rw [show (1 : BitVec 1) = 1#1 from rfl, StableHlo.Predicate.cmpi_eq_iff]
  constructor
  · intro h
    have h2 := congrArg BitVec.toNat h
    simp only [BitVec.toNat_ofNat] at h2
    have := t.isLt
    omega
  · intro h
    rw [h]

/-! ## The mask -/

/-- The mask stage at coordinates. -/
theorem v103_at (L : IVec S128 32) (p : Fin 128) (t : Fin 512) :
    val_main_v103 (F := Ideal) L (ix2 p t) = if (t.val : ℤ) < (L (ix1 p)).toInt then (1 : EReal) else 0 := by
  rw [val_main_v103_apply, val_main_v102_apply, val_main_v100_apply, val_main_v98_apply, val_main_v66_apply,
    val_main_v101_apply, val_main_v99_apply]
  have e : idx_main_v99 (idx_main_v101 (ix2 p t)) = ix1 p := by
    funext a; match a with | ⟨0, _⟩ => rfl
  rw [e]
  exact slt_step t (L (ix1 p))

/-- The mask `t < ℓ p` (a signed comparison of the step's index with the length word), as 0 / 1. -/
theorem mask_eq (L : IVec S128 32) : μOf L = Spec.maskOf (lenOf L) := by
  funext p t
  exact v103_at L p t

/-- The number of valid steps. -/
theorem v104_at (L : IVec S128 32) (i : S_.Idx) : val_main_v104 (F := Ideal) L i = Spec.den (μOf L) := by
  rw [val_main_v104_apply, val_main_cst_25_apply, zero_f32, zero_add, sum_idx2]
  rfl

/-! ## The reconstruction loss -/

/-- One term of the feature sum. -/
theorem v95_at (X : FVec Ideal S128x512x512 .f32) (A3 : FVec Ideal S64x512 .f32) (A5 : FVec Ideal S1x64 .f32)
    (p : Fin 128) (t : Fin 512) (d : Fin 512) :
    val_main_v95 (F := Ideal) X A3 A5 (ix3 p t d)
      = xOf X p t d * aOf A3 A5 d + (1 - xOf X p t d) * bOf A3 A5 d := by
  rw [val_main_v95_apply, val_main_v89_apply, val_main_v94_apply, val_main_v91_apply, val_main_v90_apply,
    val_main_cst_23_apply, one_f32, val_main_v88_apply, val_main_v87_apply, val_main_v93_apply, val_main_v92_apply]
  have e1 : idx_main_v87 (idx_main_v88 (ix3 p t d)) = ix2 0 d := by
    funext a; match a with | ⟨0, _⟩ => rfl | ⟨1, _⟩ => rfl
  have e2 : idx_main_v92 (idx_main_v93 (ix3 p t d)) = ix2 0 d := by
    funext a; match a with | ⟨0, _⟩ => rfl | ⟨1, _⟩ => rfl
  rw [e1, e2]
  rfl

/-- The feature sum of one step. -/
theorem v96_at (X : FVec Ideal S128x512x512 .f32) (A3 : FVec Ideal S64x512 .f32) (A5 : FVec Ideal S1x64 .f32)
    (p : Fin 128) (t : Fin 512) :
    val_main_v96 (F := Ideal) X A3 A5 (ix2 p t)
      = ∑ d : Fin 512, (xOf X p t d * aOf A3 A5 d + (1 - xOf X p t d) * bOf A3 A5 d) := by
  rw [val_main_v96_apply, val_main_cst_24_apply, zero_f32, zero_add]
  refine Finset.sum_congr rfl fun d _ => ?_
  have e : idx_main_v96 (ix2 p t) d = ix3 p t d := by
    funext a; match a with | ⟨0, _⟩ => rfl | ⟨1, _⟩ => rfl | ⟨2, _⟩ => rfl
  rw [e, v95_at]

/-- The masked loss of one step. -/
theorem v105_at (X : FVec Ideal S128x512x512 .f32) (L : IVec S128 32) (A3 : FVec Ideal S64x512 .f32) (A5 : FVec Ideal S1x64 .f32)
    (p : Fin 128) (t : Fin 512) :
    val_main_v105 (F := Ideal) X L A3 A5 (ix2 p t)
      = (-(∑ d : Fin 512, (xOf X p t d * aOf A3 A5 d + (1 - xOf X p t d) * bOf A3 A5 d))) * μOf L p t := by
  rw [val_main_v105_apply, val_main_v97_apply, v96_at]
  rfl

/-- The reference's reconstruction loss. -/
theorem rec_read (X : FVec Ideal S128x512x512 .f32) (L : IVec S128 32) (A3 : FVec Ideal S64x512 .f32) (A5 : FVec Ideal S1x64 .f32) (i : S_.Idx) :
    val_main_v107 (F := Ideal) X L A3 A5 i = Spec.recR (xOf X) (aOf A3 A5) (bOf A3 A5) (μOf L) := by
  rw [val_main_v107_apply, v104_at, val_main_v106_apply, val_main_cst_26_apply, zero_f32, zero_add, sum_idx2]
  simp only [v105_at]
  rfl

/-! ## The divergence loss -/

/-- The per-step divergence, chosen by "the step is the first". -/
theorem v71_at (A2 : FVec Ideal S64x64 .f32) (A4 : FVec Ideal S64 .f32) (A5 : FVec Ideal S1x64 .f32)
    (p : Fin 128) (t : Fin 512) :
    val_main_v71 (F := Ideal) A2 A4 A5 (ix2 p t) = if t.val = 0 then κ0Of A4 A5 else κtOf A2 A5 := by
  rw [val_main_v71_apply, val_main_v70_apply]
  have e : idx_main_v70 (idx_main_v71 (ix2 p t)) = ix1 t := by
    funext a; match a with | ⟨0, _⟩ => rfl
  rw [e, val_main_v69_apply, val_main_v68_apply, val_main_v66_apply, val_main_v67_apply, val_main_c_apply,
    val_main_call0_v0_apply, val_main_call0_v1_apply]
  have e0 : idx_main_call0_v0 (ix1 t) = ix1 0 := by
    funext a; match a with | ⟨0, _⟩ => rfl
  have e1 : idx_main_call0_v1 (ix1 t) = ix1 0 := by
    funext a; match a with | ⟨0, _⟩ => rfl
  rw [e0, e1]
  exact select_step0 t _ _

/-- The reference's divergence loss. -/
theorem kl_read (L : IVec S128 32) (A2 : FVec Ideal S64x64 .f32) (A4 : FVec Ideal S64 .f32) (A5 : FVec Ideal S1x64 .f32) (i : S_.Idx) :
    val_main_v110 (F := Ideal) L A2 A4 A5 i = Spec.klR (κ0Of A4 A5) (κtOf A2 A5) (μOf L) := by
  rw [val_main_v110_apply, v104_at, val_main_v109_apply, val_main_cst_27_apply, zero_f32, zero_add, sum_idx2]
  simp only [val_main_v108_apply, v71_at]
  rfl

end Cert.RefRead

end
-- ==== Proof.KFinal.lean ====
/-
  The kernel program's two results are the specification's `recK` and `klK` of the named quantities.
-/
import proofs.«411001_j80410377716208_3_alg».proof.Proof.KTail
import proofs.«411001_j80410377716208_3_alg».proof.Proof.KSum
import proofs.«411001_j80410377716208_3_alg».proof.Proof.KPrefix
import proofs.«411001_j80410377716208_3_alg».proof.Proof.RefRead
import Idealize.ShloMosaic.PureOps.Ideal.Laws

noncomputable section

namespace Cert.KernelIdeal.KFinal

open Idealize.ShloMosaic Idealize.ShloMosaic.TcCoe Idealize.ShloMosaic.ValueIdx Idealize.SL Idealize.SL.Sem
open Cert.KernelIdeal Cert.KernelIdeal.Gen Cert.KernelIdeal.KArray Cert.KernelIdeal.KPrefix Cert.Names
open scoped BigOperators

variable (m : (ℓ : Loc nD τ sig) → Buf (Elt Ideal) ℓ)

/-- The host's sum of the output array: zero plus the sum of its entries. -/
theorem sum_out (c : Dev nD) (i : S_.Idx) :
    Host.reduceAdd (F := Ideal) (G (F := Ideal) m c) (constant S_ .f32 0#32) reducesTo_S32x128_S_d0_1 h_S_ i
      = ∑ jj : S32x128.Idx, G (F := Ideal) m c jj := by
  generalize G (F := Ideal) m c = y0
  simp only [Host.reduceAdd, Ideal.hostReduceAdd_def]
  refine (Ideal.hostReduceAdd_total reducesTo_S32x128_S_d0_1 (fun b => b.elim0) y0 _ i).trans ?_
  rw [constant_apply, Ideal.ofBits_zero_f32, zero_add]

/-- The closing host operations of the first result, read at the one index: over any operands. -/
theorem rec_apply (Gv : (⟨S32x128, .f32⟩ : BufTy).Contents (Elt Ideal)) (dv cv : (⟨S_, .f32⟩ : BufTy).Contents (Elt Ideal)) (i : S_.Idx) :
    subf (Host.divf (Host.negf (Host.reduceAdd (F := Ideal) Gv (constant S_ .f32 0#32) reducesTo_S32x128_S_d0_1 h_S_)) dv) cv i
      = Ideal.div (-(Host.reduceAdd (F := Ideal) Gv (constant S_ .f32 0#32) reducesTo_S32x128_S_d0_1 h_S_ i)) (dv i) - cv i := rfl

/-- The closing quotient of the second result, read at the one index. -/
theorem kl_apply (av dv : FVec Ideal S_ .f32) (i : S_.Idx) :
    Host.divf av dv i = Ideal.div (av i) (dv i) := rfl

/-- The reconstruction loss the kernel program returns. -/
theorem rec_val (c : Dev nD) (i : S_.Idx) :
    KTail.recTerm m c i
      = Spec.recK (xOf (m ((c : Thread nD τ).loc main_arg0)))
          (aOf (m ((c : Thread nD τ).loc main_arg3)) (m ((c : Thread nD τ).loc main_arg5)))
          (bOf (m ((c : Thread nD τ).loc main_arg3)) (m ((c : Thread nD τ).loc main_arg5)))
          (μOf (m ((c : Thread nD τ).loc main_arg1))) := by
  unfold KTail.recTerm
  rw [rec_apply, sum_out, KSum.sum_G, V_den, RefRead.v104_at, V_cst]
  rfl

/-- The divergence loss the kernel program returns. -/
theorem kl_val (c : Dev nD) (i : S_.Idx) :
    KTail.klTerm m c i
      = Spec.klK (κ0Of (m ((c : Thread nD τ).loc main_arg4)) (m ((c : Thread nD τ).loc main_arg5)))
          (κtOf (m ((c : Thread nD τ).loc main_arg2)) (m ((c : Thread nD τ).loc main_arg5)))
          (lenOf (m ((c : Thread nD τ).loc main_arg1))) (μOf (m ((c : Thread nD τ).loc main_arg1))) := by
  unfold KTail.klTerm
  rw [kl_apply, V_klsum, V_den, RefRead.v104_at]
  rfl

/-- The kernel program's run: every weakly fair execution ends with the specification's two kernel-side losses and
    the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v112)
        = (fun _ => Spec.recK (xOf (m ((c.tc : Thread nD τ).loc main_arg0)))
            (aOf (m ((c.tc : Thread nD τ).loc main_arg3)) (m ((c.tc : Thread nD τ).loc main_arg5)))
            (bOf (m ((c.tc : Thread nD τ).loc main_arg3)) (m ((c.tc : Thread nD τ).loc main_arg5)))
            (μOf (m ((c.tc : Thread nD τ).loc main_arg1))))
      ∧ r.2.mem ((c.tc : Thread nD τ).loc main_v113)
        = (fun _ => Spec.klK (κ0Of (m ((c.tc : Thread nD τ).loc main_arg4)) (m ((c.tc : Thread nD τ).loc main_arg5)))
            (κtOf (m ((c.tc : Thread nD τ).loc main_arg2)) (m ((c.tc : Thread nD τ).loc main_arg5)))
            (lenOf (m ((c.tc : Thread nD τ).loc main_arg1))) (μOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1.trans (funext fun i => rec_val m c i), (h c).2.1.trans (funext fun i => kl_val m c i), (h c).2.2⟩)
    (KTail.run (F := Ideal) m ρ)

end Cert.KernelIdeal.KFinal

end
-- ==== Proof.LogsFinite.lean ====
/-
  The two emission logarithms are real numbers when the emission logits and the state logits are:
  `q = softmax` is a probability vector, `sigmoid` lies in (0, 1), so `e = q · sigmoid E` lies in [0, 1] and both
  `e + ε` and `1 - e + ε` are positive reals.
-/
import proofs.«411001_j80410377716208_3_alg».proof.Proof.Names

noncomputable section

namespace Cert.LogsFinite

open Idealize.ShloMosaic Idealize.ShloMosaic.ValueIdx Cert.ReferenceIdeal Cert.ReferenceIdeal.Read Cert.Names
open scoped BigOperators

/-! ## The constants: minus infinity, one and the small positive ε -/

/-- The f32 pattern of minus infinity is the bottom of the extended reals. -/
theorem ofBits_negInf : Ideal.ofBits .f32 0xFF800000#32 = (⊥ : EReal) := by
  simp [Ideal.ofBits, Ideal.ieee]

/-- The f32 pattern of one is the real one. -/
theorem ofBits_one : Ideal.ofBits .f32 0x3F800000#32 = ((1 : ℝ) : EReal) := by
  simp [Ideal.ofBits, Ideal.ieee, -EReal.coe_mul]; norm_num

/-- The f32 pattern nearest to 1e-10 is a positive real. -/
theorem ofBits_eps : ∃ e : ℝ, 0 < e ∧ Ideal.ofBits .f32 0x2EDBE6FF#32 = (e : EReal) := by
  refine ⟨_, ?_, by simp [Ideal.ofBits, Ideal.ieee, -EReal.coe_mul]; rfl⟩
  positivity

/-! ## The operations on real arguments -/

/-- A quotient of a real by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

/-- The logarithm of a positive real is the real logarithm. -/
theorem log_coe_pos (r : ℝ) (hr : 0 < r) : Ideal.log (r : EReal) = ((Real.log r : ℝ) : EReal) := by
  rw [Ideal.log_coe, if_neg (not_le.mpr hr)]

/-- A maximum of finitely many reals, taken from minus infinity over a nonempty index set, is a real. -/
theorem fold_max_real (g : Fin 64 → EReal) (hg : ∀ k, ∃ r : ℝ, g k = (r : EReal)) :
    ∃ m : ℝ, (Finset.univ : Finset (Fin 64)).fold max (⊥ : EReal) g = (m : EReal) := by
  have h1 : (Finset.univ : Finset (Fin 64)).fold max (⊥ : EReal) g ≠ ⊤ := by
    refine ne_of_lt ?_
    rw [Finset.fold_max_lt]
    refine ⟨bot_lt_top, fun k _ => ?_⟩
    obtain ⟨r, hr⟩ := hg k
    rw [hr]; exact EReal.coe_lt_top r
  have h2 : (Finset.univ : Finset (Fin 64)).fold max (⊥ : EReal) g ≠ ⊥ := by
    obtain ⟨r, hr⟩ := hg 0
    refine ne_of_gt (lt_of_lt_of_le (EReal.bot_lt_coe r) ?_)
    rw [Finset.le_fold_max]
    exact Or.inr ⟨0, Finset.mem_univ _, hr.ge⟩
  exact ⟨_, (EReal.coe_toReal h1 h2).symm⟩

/-! ## The softmax of the state logits -/

/-- The row maximum the softmax subtracts is a real number. -/
theorem max_real (A5 : FVec Ideal S1x64 .f32) (h5 : ∀ j, ∃ r : ℝ, A5 j = (r : EReal)) (i : S1.Idx) :
    ∃ m : ℝ, val_main_v2 (F := Ideal) A5 i = (m : EReal) := by
  rw [val_main_v2_apply, val_main_v1_apply, val_main_cst_0_apply]
  unfold val_main_v0
  rw [Host.reduce_eq_fold_single FloatOps.maximumf A5 _ Gen.reducesTo_S1x64_S1_d1 (by decide) Gen.h_S_ i, val_main_cst_apply]
  show ∃ m : ℝ, max (Ideal.ofBits .f32 0xFF800000#32) (Finset.univ.fold max (Ideal.ofBits .f32 0xFF800000#32) _) = (m : EReal)
  rw [ofBits_negInf, max_bot_left]
  exact fold_max_real _ (fun k => h5 _)

/-- The coercion of the reals into the extended reals commutes with finite sums. -/
theorem coe_finset_sum {ι : Type*} (s : Finset ι) (f : ι → ℝ) :
    ((∑ i ∈ s, f i : ℝ) : EReal) = ∑ i ∈ s, (f i : EReal) := by
  induction s using Finset.cons_induction with
  | empty => simp
  | cons a S ha ih => rw [Finset.sum_cons, Finset.sum_cons, EReal.coe_add, ih]

/-- The softmax of real logits is a probability vector of reals: nonnegative entries of sum one. -/
theorem softmax_real (A5 : FVec Ideal S1x64 .f32) (h5 : ∀ j, ∃ r : ℝ, A5 j = (r : EReal)) :
    ∃ qr : Fin 64 → ℝ, (∀ z, 0 ≤ qr z) ∧ ∑ z, qr z = 1 ∧
      ∀ z : Fin 64, val_main_v10 (F := Ideal) A5 (ix2 0 z) = ((qr z : ℝ) : EReal) := by
  choose f hf using h5
  obtain ⟨m, hm⟩ := max_real A5 (fun j => ⟨f j, hf j⟩) (idx_main_v3 (idx_main_v4 (ix2 0 0)))
  -- each exponential exp (x z - M) is a positive real
  have hE : ∀ z : Fin 64, val_main_v6 (F := Ideal) A5 (ix2 0 z) = ((Real.exp (f (ix2 0 z) - m) : ℝ) : EReal) := by
    intro z
    rw [val_main_v6_apply, val_main_v5_apply, val_main_v4_apply, val_main_v3_apply,
      show val_main_v2 (F := Ideal) A5 (idx_main_v3 (idx_main_v4 (ix2 0 z))) = (m : EReal) from hm, hf,
      Ideal.subf_def, Ideal.hostUnary_exp_def, ← EReal.coe_sub, Ideal.exp_coe]
  -- their sum is a positive real
  have hS : ∀ i : S1.Idx, val_main_v7 (F := Ideal) A5 i = ((∑ k : Fin 64, Real.exp (f (ix2 0 k) - m) : ℝ) : EReal) := by
    intro i
    rw [val_main_v7_apply, val_main_cst_1_apply, Ideal.ofBits_def, Ideal.ofBits_zero_f32, zero_add, coe_finset_sum]
    refine Finset.sum_congr rfl fun k _ => ?_
    rw [← hE k]
    refine congrArg _ (funext fun a => ?_)
    match a with
    | ⟨0, _⟩ => exact Fin.ext (by have h := (i 0).isLt; show (i 0).val = 0; change (i 0).val < 1 at h; omega)
    | ⟨1, _⟩ => rfl
  have hpos : 0 < ∑ k : Fin 64, Real.exp (f (ix2 0 k) - m) :=
    Finset.sum_pos (fun k _ => Real.exp_pos _) ⟨0, Finset.mem_univ _⟩
  refine ⟨fun z => Real.exp (f (ix2 0 z) - m) / ∑ k : Fin 64, Real.exp (f (ix2 0 k) - m), fun z => ?_, ?_, fun z => ?_⟩
  · exact div_nonneg (Real.exp_pos _).le hpos.le
  · rw [← Finset.sum_div, div_self hpos.ne']
  · rw [val_main_v10_apply, val_main_v9_apply, val_main_v8_apply, hS, hE, Ideal.hostDivf_def, div_coe_coe _ _ hpos.ne']

/-! ## The sigmoid of the emission logits -/

/-- The sigmoid of a real logit is a real between zero and one. -/
theorem sigmoid_real (A3 : FVec Ideal S64x512 .f32) (h3 : ∀ j, ∃ r : ℝ, A3 j = (r : EReal)) :
    ∃ sr : Fin 64 → Fin 512 → ℝ, ∀ z d, 0 ≤ sr z d ∧ sr z d ≤ 1 ∧
      val_main_v77 (F := Ideal) A3 (ix2 z d) = ((sr z d : ℝ) : EReal) := by
  choose g hg using h3
  refine ⟨fun z d => 1 / (1 + Real.exp (-(g (ix2 z d)))), fun z d => ?_⟩
  have hpos : 0 < 1 + Real.exp (-(g (ix2 z d))) := by positivity
  refine ⟨by positivity, ?_, ?_⟩
  · rw [div_le_one hpos]; linarith [Real.exp_pos (-(g (ix2 z d)))]
  · rw [val_main_v77_apply, val_main_v76_apply, val_main_cst_19_apply, val_main_v75_apply, val_main_v74_apply,
      val_main_cst_18_apply, val_main_v73_apply, val_main_v72_apply, hg, Ideal.ofBits_def, ofBits_one,
      Ideal.hostNegf_def, Ideal.negf_def, ← EReal.coe_neg, Ideal.hostUnary_exp_def, Ideal.exp_coe, Ideal.addf_def,
      ← EReal.coe_add, Ideal.hostDivf_def, div_coe_coe _ _ hpos.ne']

/-! ## The expected emission e = q · sigmoid E -/

/-- The expected emission is a real between zero and one: a convex combination of such reals. -/
theorem e_real (A3 : FVec Ideal S64x512 .f32) (A5 : FVec Ideal S1x64 .f32)
    (h3 : ∀ j, ∃ r : ℝ, A3 j = (r : EReal)) (h5 : ∀ j, ∃ r : ℝ, A5 j = (r : EReal)) :
    ∃ er : Fin 512 → ℝ, ∀ d, 0 ≤ er d ∧ er d ≤ 1 ∧
      val_main_v78 (F := Ideal) A3 A5 (ix2 0 d) = ((er d : ℝ) : EReal) := by
  obtain ⟨qr, hq0, hq1, hq⟩ := softmax_real A5 h5
  obtain ⟨sr, hs⟩ := sigmoid_real A3 h3
  refine ⟨fun d => ∑ k : Fin 64, qr k * sr k d, fun d => ⟨?_, ?_, ?_⟩⟩
  · exact Finset.sum_nonneg fun k _ => mul_nonneg (hq0 k) (hs k d).1
  · calc ∑ k : Fin 64, qr k * sr k d ≤ ∑ k : Fin 64, qr k :=
          Finset.sum_le_sum fun k _ => mul_le_of_le_one_right (hq0 k) (hs k d).2.1
      _ = 1 := hq1
  · rw [val_main_v78_apply, coe_finset_sum]
    refine Finset.sum_congr rfl fun k _ => ?_
    rw [EReal.coe_mul, ← hq k, ← (hs k d).2.2]
    congr 2 <;> (funext a; match a with | ⟨0, _⟩ => rfl | ⟨1, _⟩ => rfl)

/-! ## The two logarithms -/

theorem a_real (A3 : FVec Ideal S64x512 .f32) (A5 : FVec Ideal S1x64 .f32)
    (h3 : ∀ j, ∃ r : ℝ, A3 j = (r : EReal)) (h5 : ∀ j, ∃ r : ℝ, A5 j = (r : EReal)) :
    ∀ d, ∃ r : ℝ, aOf A3 A5 d = (r : EReal) := by
  intro d
  obtain ⟨er, he⟩ := e_real A3 A5 h3 h5
  obtain ⟨ε, hε, hεb⟩ := ofBits_eps
  obtain ⟨h0, h1, hv⟩ := he d
  refine ⟨Real.log (er d + ε), ?_⟩
  show val_main_v81 (F := Ideal) A3 A5 (ix2 0 d) = _
  rw [val_main_v81_apply, val_main_v80_apply, hv, val_main_v79_apply, val_main_cst_20_apply, Ideal.ofBits_def, hεb,
    Ideal.addf_def, ← EReal.coe_add, Ideal.hostUnary_log_def, log_coe_pos _ (by linarith)]

theorem b_real (A3 : FVec Ideal S64x512 .f32) (A5 : FVec Ideal S1x64 .f32)
    (h3 : ∀ j, ∃ r : ℝ, A3 j = (r : EReal)) (h5 : ∀ j, ∃ r : ℝ, A5 j = (r : EReal)) :
    ∀ d, ∃ r : ℝ, bOf A3 A5 d = (r : EReal) := by
  intro d
  obtain ⟨er, he⟩ := e_real A3 A5 h3 h5
  obtain ⟨ε, hε, hεb⟩ := ofBits_eps
  obtain ⟨h0, h1, hv⟩ := he d
  refine ⟨Real.log (1 - er d + ε), ?_⟩
  show val_main_v86 (F := Ideal) A3 A5 (ix2 0 d) = _
  rw [val_main_v86_apply, val_main_v85_apply, val_main_v83_apply, hv, val_main_v82_apply, val_main_cst_21_apply,
    val_main_v84_apply, val_main_cst_22_apply, Ideal.ofBits_def, Ideal.ofBits_def, ofBits_one, hεb, Ideal.subf_def,
    ← EReal.coe_sub, Ideal.addf_def, ← EReal.coe_add, Ideal.hostUnary_log_def, log_coe_pos _ (by linarith)]

end Cert.LogsFinite

end
-- ==== Proof.Algebra.lean ====
/-
  The two identities between the kernel's and the reference's losses (Spec.lean), over the extended reals.
-/
import proofs.«411001_j80410377716208_3_alg».proof.Proof.Spec

noncomputable section

namespace Cert.Spec

open Idealize.ShloMosaic
open scoped BigOperators

/-! ### Finite sums of extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- Multiplication by any extended real distributes over a finite sum of nonnegative terms. -/
theorem mul_sum_of_nonneg {ι : Type*} (c : EReal) (s : Finset ι) (f : ι → EReal) (hf : ∀ i ∈ s, 0 ≤ f i) :
    c * ∑ i ∈ s, f i = ∑ i ∈ s, c * f i := by
  classical
  revert hf
  refine Finset.induction_on s (by simp) ?_
  intro i s hi ih hf
  rw [Finset.sum_insert hi, Finset.sum_insert hi,
    EReal.left_distrib_of_nonneg (hf i (Finset.mem_insert_self i s))
      (Finset.sum_nonneg fun j hj => hf j (Finset.mem_insert_of_mem hj)),
    ih fun j hj => hf j (Finset.mem_insert_of_mem hj)]

/-! ### The kernel's grid enumerates every (sequence, step) pair once -/

/-- Rows: the map from (i, p) to 32 i + p enumerates the 128 sequences. -/
theorem sum_row {M : Type*} [AddCommMonoid M] (g : Fin 128 → M) :
    ∑ i : Fin 4, ∑ p : Fin 32, g (row i p) = ∑ P : Fin 128, g P := by
  refine ((Fintype.sum_prod_type' (fun (i : Fin 4) (p : Fin 32) => g (row i p))).symm).trans ?_
  refine Fintype.sum_equiv (finProdFinEquiv : Fin 4 × Fin 32 ≃ Fin (4 * 32)) _ _ (fun ip => ?_)
  congr 1
  apply Fin.ext
  show 32 * ip.1.val + ip.2.val = ip.2.val + 32 * ip.1.val
  omega

/-- Steps: the map from (j, k, q) to 256 j + 32 k + q enumerates the 512 steps. -/
theorem sum_col {M : Type*} [AddCommMonoid M] (g : Fin 512 → M) :
    ∑ j : Fin 2, ∑ k : Fin 8, ∑ q : Fin 32, g (col j k q) = ∑ t : Fin 512, g t := by
  have h1 : ∀ j : Fin 2, ∑ k : Fin 8, ∑ q : Fin 32, g (col j k q)
      = ∑ r : Fin 256, g ⟨256 * j.val + r.val, by omega⟩ := by
    intro j
    refine ((Fintype.sum_prod_type' (fun (k : Fin 8) (q : Fin 32) => g (col j k q))).symm).trans ?_
    refine Fintype.sum_equiv (finProdFinEquiv : Fin 8 × Fin 32 ≃ Fin (8 * 32)) _ _ (fun kq => ?_)
    congr 1
    apply Fin.ext
    show 256 * j.val + 32 * kq.1.val + kq.2.val = 256 * j.val + (kq.2.val + 32 * kq.1.val)
    omega
  rw [Finset.sum_congr rfl fun j _ => h1 j]
  refine ((Fintype.sum_prod_type' (fun (j : Fin 2) (r : Fin 256) =>
    g ⟨256 * j.val + r.val, by omega⟩)).symm).trans ?_
  refine Fintype.sum_equiv (finProdFinEquiv : Fin 2 × Fin 256 ≃ Fin (2 * 256)) _ _ (fun jr => ?_)
  congr 1
  apply Fin.ext
  show 256 * jr.1.val + jr.2.val = jr.2.val + 256 * jr.1.val
  omega

/-- The five-fold sum over row blocks, time blocks, chunks, local rows and local steps is the plain double sum. -/
theorem sum_grid {M : Type*} [AddCommMonoid M] (f : Fin 128 → Fin 512 → M) :
    ∑ i : Fin 4, ∑ j : Fin 2, ∑ k : Fin 8, ∑ p : Fin 32, ∑ q : Fin 32, f (row i p) (col j k q)
      = ∑ P : Fin 128, ∑ t : Fin 512, f P t := by
  calc ∑ i : Fin 4, ∑ j : Fin 2, ∑ k : Fin 8, ∑ p : Fin 32, ∑ q : Fin 32, f (row i p) (col j k q)
      = ∑ i : Fin 4, ∑ p : Fin 32, ∑ j : Fin 2, ∑ k : Fin 8, ∑ q : Fin 32, f (row i p) (col j k q) := by
        refine Finset.sum_congr rfl fun i _ => ?_
        calc ∑ j : Fin 2, ∑ k : Fin 8, ∑ p : Fin 32, ∑ q : Fin 32, f (row i p) (col j k q)
            = ∑ j : Fin 2, ∑ p : Fin 32, ∑ k : Fin 8, ∑ q : Fin 32, f (row i p) (col j k q) :=
              Finset.sum_congr rfl fun j _ => Finset.sum_comm
          _ = ∑ p : Fin 32, ∑ j : Fin 2, ∑ k : Fin 8, ∑ q : Fin 32, f (row i p) (col j k q) := Finset.sum_comm
    _ = ∑ i : Fin 4, ∑ p : Fin 32, ∑ t : Fin 512, f (row i p) t :=
        Finset.sum_congr rfl fun i _ => Finset.sum_congr rfl fun p _ => sum_col (f (row i p))
    _ = ∑ P : Fin 128, ∑ t : Fin 512, f P t := sum_row (fun P => ∑ t : Fin 512, f P t)

/-- The kernel's sum, regrouped as a double sum over sequences and steps. -/
theorem S_eq (x : Fin 128 → Fin 512 → Fin 512 → EReal) (a b : Fin 512 → EReal) (μ : Fin 128 → Fin 512 → EReal) :
    S x a b μ = ∑ P : Fin 128, ∑ t : Fin 512, (∑ d : Fin 512, x P t d * (a d - b d)) * μ P t := by
  unfold S total chunk
  exact sum_grid (fun P t => (∑ d : Fin 512, x P t d * (a d - b d)) * μ P t)

/-! ### The reconstruction loss -/

/-- A quotient with a zero divisor is the infinity of the dividend's sign, and the lower one at a zero dividend. -/
theorem div_zero_eq (y : EReal) : Ideal.div y 0 = if 0 < y then ⊤ else ⊥ := if_pos rfl

/-- The identity for real data, real logarithms and a real mask. -/
theorem rec_coe (xr : Fin 128 → Fin 512 → Fin 512 → ℝ) (ar br : Fin 512 → ℝ) (mr : Fin 128 → Fin 512 → ℝ) :
    recK (fun p t d => (xr p t d : EReal)) (fun d => (ar d : EReal)) (fun d => (br d : EReal))
        (fun p t => (mr p t : EReal))
      = recR (fun p t d => (xr p t d : EReal)) (fun d => (ar d : EReal)) (fun d => (br d : EReal))
        (fun p t => (mr p t : EReal)) := by
  have hS : S (fun p t d => (xr p t d : EReal)) (fun d => (ar d : EReal)) (fun d => (br d : EReal))
        (fun p t => (mr p t : EReal))
      = ((∑ p : Fin 128, ∑ t : Fin 512, (∑ d : Fin 512, xr p t d * (ar d - br d)) * mr p t : ℝ) : EReal) := by
    rw [S_eq]; simp only [coe_sum, EReal.coe_mul, EReal.coe_sub]
  have hC : cst (fun d => (br d : EReal)) = ((∑ d : Fin 512, br d : ℝ) : EReal) := by
    unfold cst; rw [coe_sum]
  have hD : den (fun p t => (mr p t : EReal)) = ((∑ p : Fin 128, ∑ t : Fin 512, mr p t : ℝ) : EReal) := by
    unfold den; simp only [coe_sum]
  have hN : (∑ p : Fin 128, ∑ t : Fin 512,
        (-(∑ d : Fin 512, ((xr p t d : EReal) * (ar d : EReal) + (1 - (xr p t d : EReal)) * (br d : EReal))))
          * (mr p t : EReal))
      = ((∑ p : Fin 128, ∑ t : Fin 512,
          (-(∑ d : Fin 512, (xr p t d * ar d + (1 - xr p t d) * br d))) * mr p t : ℝ) : EReal) := by
    simp only [coe_sum, EReal.coe_mul, EReal.coe_sub, EReal.coe_add, EReal.coe_neg, EReal.coe_one]
  -- the identity between the real numerators
  have hreal : (∑ p : Fin 128, ∑ t : Fin 512,
        (-(∑ d : Fin 512, (xr p t d * ar d + (1 - xr p t d) * br d))) * mr p t)
      = -(∑ p : Fin 128, ∑ t : Fin 512, (∑ d : Fin 512, xr p t d * (ar d - br d)) * mr p t)
        - (∑ d : Fin 512, br d) * (∑ p : Fin 128, ∑ t : Fin 512, mr p t) := by
    rw [Finset.mul_sum, ← Finset.sum_neg_distrib, ← Finset.sum_sub_distrib]
    refine Finset.sum_congr rfl fun p _ => ?_
    rw [Finset.mul_sum, ← Finset.sum_neg_distrib, ← Finset.sum_sub_distrib]
    refine Finset.sum_congr rfl fun t _ => ?_
    have h : ∑ d : Fin 512, (xr p t d * ar d + (1 - xr p t d) * br d)
        = ∑ d : Fin 512, xr p t d * (ar d - br d) + ∑ d : Fin 512, br d := by
      rw [← Finset.sum_add_distrib]; exact Finset.sum_congr rfl fun d _ => by ring
    rw [h]; ring
  unfold recK recR
  rw [hS, hC, hD]
  simp only []
  rw [hN, hreal]
  generalize (∑ p : Fin 128, ∑ t : Fin 512, (∑ d : Fin 512, xr p t d * (ar d - br d)) * mr p t) = Sr
  generalize (∑ d : Fin 512, br d) = C
  generalize (∑ p : Fin 128, ∑ t : Fin 512, mr p t) = Dr
  by_cases hD0 : Dr = 0
  · subst hD0
    have e : (-Sr - C * 0 : ℝ) = -Sr := by ring
    rw [e, EReal.coe_neg, EReal.coe_zero]
    rw [div_zero_eq]
    split_ifs
    · exact EReal.top_sub_coe C
    · exact EReal.bot_sub _
  · rw [Ideal.div_coe hD0, Ideal.div_coe hD0, ← EReal.coe_neg, ← EReal.coe_mul, ← EReal.coe_sub, ← EReal.coe_mul]
    refine congrArg Real.toEReal ?_
    field_simp

/-- The reconstruction losses agree when the data and the two logarithms are real numbers and the mask is the
    lengths' (any lengths: with no valid step both quotients have a zero divisor and the same conventional value). -/
theorem rec_eq (x : Fin 128 → Fin 512 → Fin 512 → EReal) (a b : Fin 512 → EReal) (ℓ : Fin 128 → ℤ)
    (hx : ∀ p t d, ∃ r : ℝ, x p t d = (r : EReal)) (ha : ∀ d, ∃ r : ℝ, a d = (r : EReal)) (hb : ∀ d, ∃ r : ℝ, b d = (r : EReal)) :
    recK x a b (maskOf ℓ) = recR x a b (maskOf ℓ) := by
  choose xr hxr using hx
  choose ar har using ha
  choose br hbr using hb
  have ex : x = fun p t d => (xr p t d : EReal) := by funext p t d; exact hxr p t d
  have ea : a = fun d => (ar d : EReal) := funext har
  have eb : b = fun d => (br d : EReal) := funext hbr
  have em : maskOf ℓ = fun p t => (((if (t.val : ℤ) < ℓ p then (1 : ℝ) else 0) : ℝ) : EReal) := by
    funext p t
    unfold maskOf
    split_ifs
    · exact EReal.coe_one.symm
    · exact EReal.coe_zero.symm
  rw [ex, ea, eb, em]
  exact rec_coe xr ar br _

/-! ### The divergence loss -/

/-- Counting: of the naturals below m, exactly n lie below n, when n is at most m. -/
theorem sum_lt_indicator : ∀ (m n : ℕ), n ≤ m → ∑ t : Fin m, (if t.val < n then (1 : ℝ) else 0) = n
  | 0, n, h => by
    have hn : n = 0 := by omega
    subst hn; simp
  | m + 1, n, h => by
    rw [Fin.sum_univ_castSucc]
    simp only [Fin.coe_castSucc, Fin.val_last]
    rcases Nat.lt_or_ge m n with hmn | hmn
    · have hn : n = m + 1 := by omega
      subst hn
      have h1 : ∀ t : Fin m, (if t.val < m + 1 then (1 : ℝ) else 0) = 1 := fun t => if_pos (by omega)
      simp only [h1, Finset.sum_const, Finset.card_univ, Fintype.card_fin, nsmul_eq_mul, mul_one]
      rw [if_pos (by omega)]
      push_cast; ring
    · rw [sum_lt_indicator m n hmn, if_neg (by omega), add_zero]

/-- The later steps of one sequence of length L, at most 512: max (L - 1) 0 of the steps 1 … 511 lie below L. -/
theorem tail_count (L : ℤ) (hL : L ≤ 512) :
    ∑ t : Fin 511, (if ((t.succ.val : ℕ) : ℤ) < L then (1 : EReal) else 0) = max (((L : ℝ) : EReal) - 1) 0 := by
  have hcond : ∀ t : Fin 511, (((t.succ.val : ℕ) : ℤ) < L) ↔ t.val < (L - 1).toNat := by
    intro t; simp only [Fin.val_succ]; omega
  have h1 : ∀ t : Fin 511, (if ((t.succ.val : ℕ) : ℤ) < L then (1 : EReal) else 0)
      = (((if t.val < (L - 1).toNat then (1 : ℝ) else 0) : ℝ) : EReal) := by
    intro t
    by_cases h : t.val < (L - 1).toNat
    · rw [if_pos ((hcond t).2 h), if_pos h, EReal.coe_one]
    · rw [if_neg (fun h' => h ((hcond t).1 h')), if_neg h, EReal.coe_zero]
  rw [Finset.sum_congr rfl fun t _ => h1 t, ← coe_sum, sum_lt_indicator 511 _ (by omega)]
  have hmax : (((L - 1).toNat : ℕ) : ℝ) = max ((L : ℝ) - 1) 0 := by
    rcases le_or_gt L 1 with h | h
    · have e : (L - 1).toNat = 0 := by omega
      rw [e, max_eq_right]
      · simp
      · have : (L : ℝ) ≤ 1 := by exact_mod_cast h
        linarith
    · have e : (((L - 1).toNat : ℕ) : ℤ) = L - 1 := by omega
      have e' : (((L - 1).toNat : ℕ) : ℝ) = (L : ℝ) - 1 := by
        have := congrArg (fun z : ℤ => (z : ℝ)) e
        simpa using this
      rw [e', max_eq_left]
      have : (1 : ℝ) < (L : ℝ) := by exact_mod_cast h
      linarith
  rw [hmax, EReal.coe_strictMono.monotone.map_max, EReal.coe_sub, EReal.coe_one, EReal.coe_zero]

/-- One sequence's share of the reference's divergence sum. -/
theorem kl_row (κ0 κt : EReal) (ℓ : Fin 128 → ℤ) (p : Fin 128) (hL : ℓ p ≤ 512) :
    ∑ t : Fin 512, (if t.val = 0 then κ0 else κt) * maskOf ℓ p t
      = κ0 * (if 1 ≤ ℓ p then (1 : EReal) else 0) + κt * max ((((ℓ p : ℤ) : ℝ) : EReal) - 1) 0 := by
  have hfirst : (if (0 : Fin 512).val = 0 then κ0 else κt) * maskOf ℓ p 0
      = κ0 * (if 1 ≤ ℓ p then (1 : EReal) else 0) := by
    have h0 : ((0 : Fin 512).val) = 0 := rfl
    rw [if_pos h0]
    unfold maskOf
    by_cases h : 1 ≤ ℓ p
    · rw [if_pos h, if_pos (by rw [h0]; push_cast; omega)]
    · rw [if_neg h, if_neg (by rw [h0]; push_cast; omega)]
  have hrest : ∑ t : Fin 511, (if t.succ.val = 0 then κ0 else κt) * maskOf ℓ p t.succ
      = κt * max ((((ℓ p : ℤ) : ℝ) : EReal) - 1) 0 := by
    have h1 : ∀ t : Fin 511, (if t.succ.val = 0 then κ0 else κt) * maskOf ℓ p t.succ
        = κt * (if ((t.succ.val : ℕ) : ℤ) < ℓ p then (1 : EReal) else 0) := by
      intro t
      rw [if_neg (by simp)]
      rfl
    rw [Finset.sum_congr rfl fun t _ => h1 t,
      ← mul_sum_of_nonneg κt _ _ (fun t _ => by split_ifs <;> simp), tail_count _ hL]
  rw [Fin.sum_univ_succ]
  exact congrArg₂ (· + ·) hfirst hrest

/-- The divergence losses agree, for ANY extended reals `κ0`, `κt`, when no length exceeds the 512 steps. -/
theorem kl_eq (κ0 κt : EReal) (ℓ : Fin 128 → ℤ) (hℓ : ∀ p, ℓ p ≤ 512) :
    klK κ0 κt ℓ (maskOf ℓ) = klR κ0 κt (maskOf ℓ) := by
  unfold klK klR
  congr 1
  rw [Finset.sum_congr rfl fun p _ => kl_row κ0 κt ℓ p (hℓ p), Finset.sum_add_distrib]
  unfold hasT0 tailSteps
  rw [mul_sum_of_nonneg, mul_sum_of_nonneg]
  · intro p _; exact le_max_right _ _
  · intro p _; split_ifs <;> simp

end Cert.Spec

end
-- ==== Proof.RFinal.lean ====
/-
  The reference program's run, with its two results brought to the kernel's form: for arguments that are real numbers
  (the data, the emission logits, the state logits) and lengths of at most 512 the reference's losses are the
  kernel's `recK` and `klK` of the same named quantities.
-/
import proofs.«411001_j80410377716208_3_alg».proof.Proof.RefRead
import proofs.«411001_j80410377716208_3_alg».proof.Proof.LogsFinite
import proofs.«411001_j80410377716208_3_alg».proof.Proof.Algebra
import proofs.«411001_j80410377716208_3_alg».proof.Proof.Gen.ReferenceIdeal.Run
import proofs.«411001_j80410377716208_3_alg».proof.Proof.Gen.ReferenceIdeal.Read

noncomputable section

namespace Cert.RFinal

open Idealize.ShloMosaic Idealize.ShloMosaic.TcCoe Idealize.ShloMosaic.ValueIdx Idealize.SL Idealize.SL.Sem
open Cert.ReferenceIdeal Cert.ReferenceIdeal.Gen Cert.ReferenceIdeal.Read Cert.Names

/-- The reconstruction loss, from the reference's stage to the kernel's form. -/
theorem rec_val (X : FVec Ideal S128x512x512 .f32) (L : IVec S128 32) (A3 : FVec Ideal S64x512 .f32) (A5 : FVec Ideal S1x64 .f32)
    (hx : ∀ j, ∃ r : ℝ, X j = (r : EReal)) (h3 : ∀ j, ∃ r : ℝ, A3 j = (r : EReal)) (h5 : ∀ j, ∃ r : ℝ, A5 j = (r : EReal)) :
    val_main_v107 (F := Ideal) X L A3 A5 = fun _ => Spec.recK (xOf X) (aOf A3 A5) (bOf A3 A5) (μOf L) := by
  funext i
  rw [Cert.RefRead.rec_read, Cert.RefRead.mask_eq]
  exact (Spec.rec_eq _ _ _ _ (fun p t d => hx _) (Cert.LogsFinite.a_real A3 A5 h3 h5) (Cert.LogsFinite.b_real A3 A5 h3 h5)).symm

/-- The divergence loss, from the reference's stage to the kernel's form. -/
theorem kl_val (L : IVec S128 32) (A2 : FVec Ideal S64x64 .f32) (A4 : FVec Ideal S64 .f32) (A5 : FVec Ideal S1x64 .f32)
    (hlen : ∀ p : Fin 128, (L (ix1 p)).toInt ≤ 512) :
    val_main_v110 (F := Ideal) L A2 A4 A5 = fun _ => Spec.klK (κ0Of A4 A5) (κtOf A2 A5) (lenOf L) (μOf L) := by
  funext i
  rw [Cert.RefRead.kl_read, Cert.RefRead.mask_eq]
  exact (Spec.kl_eq _ _ _ hlen).symm

/-- The reference program's run. -/
theorem run (m : (ℓ : Loc nD τ sig) → Buf (Elt Ideal) ℓ) (ρ : Dev nD → PrngReg)
    (hx : ∀ (c : Dev nD) j, ∃ r : ℝ, m ((c.tc : Thread nD τ).loc main_arg0) j = (r : EReal))
    (h3 : ∀ (c : Dev nD) j, ∃ r : ℝ, m ((c.tc : Thread nD τ).loc main_arg3) j = (r : EReal))
    (h5 : ∀ (c : Dev nD) j, ∃ r : ℝ, m ((c.tc : Thread nD τ).loc main_arg5) j = (r : EReal))
    (hlen : ∀ (c : Dev nD) (p : Fin 128), (m ((c.tc : Thread nD τ).loc main_arg1) (ix1 p)).toInt ≤ 512) :
    θ_run defs (onTc (τ := τ) (main (F := Ideal))) ⟨m, fun _ => 0, ρ⟩ (fun r => ∀ c : Dev nD,
      r.2.mem ((c.tc : Thread nD τ).loc main_v107)
        = (fun _ => Spec.recK (xOf (m ((c.tc : Thread nD τ).loc main_arg0)))
            (aOf (m ((c.tc : Thread nD τ).loc main_arg3)) (m ((c.tc : Thread nD τ).loc main_arg5)))
            (bOf (m ((c.tc : Thread nD τ).loc main_arg3)) (m ((c.tc : Thread nD τ).loc main_arg5)))
            (μOf (m ((c.tc : Thread nD τ).loc main_arg1))))
      ∧ r.2.mem ((c.tc : Thread nD τ).loc main_v110)
        = (fun _ => Spec.klK (κ0Of (m ((c.tc : Thread nD τ).loc main_arg4)) (m ((c.tc : Thread nD τ).loc main_arg5)))
            (κtOf (m ((c.tc : Thread nD τ).loc main_arg2)) (m ((c.tc : Thread nD τ).loc main_arg5)))
            (lenOf (m ((c.tc : Thread nD τ).loc main_arg1))) (μOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1.trans (val_main_v107_eq m c)).trans (rec_val _ _ _ _ (hx c) (h3 c) (h5 c)),
      ((h c).2.1.trans (val_main_v110_eq m c)).trans (kl_val _ _ _ _ (hlen c)), (h c).2.2⟩)
    (Cert.ReferenceIdeal.Value.run (F := Ideal) m ρ)

end Cert.RFinal

end
-- ==== Proof.PreFacts.lean ====
/-
  What the precondition says of the arguments: every float entry is a real number, and no length exceeds 512.
-/
import proofs.«411001_j80410377716208_3_alg».proof.Pre_finite_inputs
import proofs.«411001_j80410377716208_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The rank-0 shape has one index. -/
instance subsingleton_scalar_idx : Subsingleton S_.Idx := ⟨fun a b => funext fun d => d.elim0⟩

/-- The word 0x7F800000 denotes +∞. -/
theorem ofBits_pos_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) :
    ∃ r : ℝ, x = (r : EReal) := by
  induction x using EReal.rec with
  | bot => exact absurd h (by simp [Ideal.cmp])
  | coe r => exact ⟨r, rfl⟩
  | top => exact absurd h (by simp [Ideal.cmp])

/-- The per-argument step, for any shape: if the and-reduce over all axes of |x| < +∞ is 1, every entry of x is real. -/
theorem real_of_all_lt_inf {s : Shape} {axes : List (Fin s.rank)} (x : FVec Ideal s .f32)
    (hb : S_.BroadcastsInDim s (![] : Fin 0 → Fin s.rank)) (hr : s.ReducesTo axes S_) (h0 : 0 < S_.numel)
    (init : IVec S_ 1)
    (e : Host.reduce IntOp.andi
        (cmpf .olt (Host.absf x) (broadcastInDim s ![] hb (constant S_ .f32 0x7F800000#32))) init hr h0 ix0 = 1#1) :
    ∀ j, ∃ r : ℝ, x j = (r : EReal) := by
  intro j
  have hj := Host.reduce_andi_all _ init hr h0 ix0 e j
  have hb' : broadcastInDim s ![] hb (constant (F := Ideal) S_ .f32 0x7F800000#32) j = (⊤ : EReal) := by
    rw [StableHlo.Predicate.bcast_scalar hb h0]; exact ofBits_pos_inf
  apply real_of_abs_lt_top
  change Ideal.cmp .olt (max (x j) (-(x j)))
    (broadcastInDim s ![] hb (constant (F := Ideal) S_ .f32 0x7F800000#32) j) = 1#1 at hj
  rwa [hb'] at hj

/-- The integer step: if the and-reduce of w ≤ 512 (signed) over a vector of words is 1, every word is at most 512. -/
theorem le_of_all_sle {n : Nat} {axes : List (Fin (⟨1, ![n]⟩ : Shape).rank)} (w : IVec ⟨1, ![n]⟩ 32)
    (hb : S_.BroadcastsInDim ⟨1, ![n]⟩ (![] : Fin 0 → Fin (⟨1, ![n]⟩ : Shape).rank))
    (hr : (⟨1, ![n]⟩ : Shape).ReducesTo axes S_) (h0 : 0 < S_.numel) (init : IVec S_ 1)
    (e : Host.reduce IntOp.andi
        (cmpi .sle w (broadcastInDim ⟨1, ![n]⟩ ![] hb (constantI S_ 32 512#32))) init hr h0 ix0 = 1#1) :
    ∀ p : Fin n, (w (ix1 p)).toInt ≤ 512 := by
  intro p
  have hp := Host.reduce_andi_all _ init hr h0 ix0 e (ix1 p)
  have hb' : broadcastInDim (⟨1, ![n]⟩ : Shape) ![] hb (constantI S_ 32 512#32) (ix1 p) = 512#32 := by
    rw [StableHlo.Predicate.bcast_scalar hb h0]; rfl
  change IntOp.cmpi .sle (w (ix1 p)) (broadcastInDim (⟨1, ![n]⟩ : Shape) ![] hb (constantI S_ 32 512#32) (ix1 p)) = 1#1 at hp
  rw [hb', IntOp.cmpi_sle] at hp
  have h512 : (512#32 : BitVec 32).toInt = 512 := by decide
  rwa [h512] at hp

theorem pre_facts [Cert.Pre_finite_inputs.Facts] (a0 : FVec Ideal S128x512x512 .f32) (a1 : IVec S128 32) (a2 : FVec Ideal S64x64 .f32)
    (a3 : FVec Ideal S64x512 .f32) (a4 : FVec Ideal S64 .f32) (a5 : FVec Ideal S1x64 .f32)
    (h : Cert.Pre_finite_inputs.fn (F := Ideal) a0 a1 a2 a3 a4 a5 = fun _ => 1#1) :
    (∀ j, ∃ r : ℝ, a0 j = (r : EReal)) ∧ (∀ j, ∃ r : ℝ, a2 j = (r : EReal)) ∧ (∀ j, ∃ r : ℝ, a3 j = (r : EReal))
      ∧ (∀ j, ∃ r : ℝ, a4 j = (r : EReal)) ∧ (∀ j, ∃ r : ℝ, a5 j = (r : EReal)) ∧ (∀ p : Fin 128, (a1 (ix1 p)).toInt ≤ 512) := by
  have h0 := congrFun h ix0
  dsimp only [fn, fn_part1] at h0
  simp only [andi, IntOp.andi_eq_one] at h0
  obtain ⟨⟨⟨⟨⟨e0, e2⟩, e3⟩, e4⟩, e5⟩, e1⟩ := h0
  exact ⟨real_of_all_lt_inf a0 _ _ _ _ e0, real_of_all_lt_inf a2 _ _ _ _ e2, real_of_all_lt_inf a3 _ _ _ _ e3,
    real_of_all_lt_inf a4 _ _ _ _ e4, real_of_all_lt_inf a5 _ _ _ _ e5, le_of_all_sle a1 _ _ _ _ e1⟩

end Cert.PreFacts

end
-- ==== Proof.lean ====
/-
  The certificate of the masked sequence loss (a reconstruction term and a divergence term, each averaged over the
  valid steps of 128 sequences of up to 512 steps).

  The reference computes, for every step, `-(∑ d, x·a + (1 - x)·b)` with `a = log (e + ε)`, `b = log (1 - e + ε)`,
  masks it by `t < ℓ p`, sums and divides by the number of valid steps; and it spreads the divergence `κ0` of the
  first step and `κt` of every later one over the same mask.  The kernel uses `x·a + (1 - x)·b = x·(a - b) + b`: it
  streams `x` once, accumulating `(∑ d, x·(a - b))·μ` chunk by chunk into one cell per row block, and the host adds
  `∑ b` afterwards; the divergence it counts in closed form, `κ0 · #{p | 1 ≤ ℓ p} + κt · ∑ p, max (ℓ p - 1) 0`.
  Over the extended reals the two agree when the data and the logits are finite — then `e ∈ [0, 1]` and both
  logarithms are real, so the sums may be regrouped — and when no length exceeds the 512 steps the arrays hold (a
  longer length would count steps the mask never sees).  With no valid step at all both programs divide by zero and
  take the same conventional value.

  The frames of the two kernel programs are the generated ones; the reference's is its generated run.  The kernel's
  value is read off the generated frame run (the two cases of its body, the eight-trip loop, the output array block
  by block, the closing host operations), the reference's off its generated run, stage by stage.
-/
import proofs.«411001_j80410377716208_3_alg».proof.Defs
import proofs.«411001_j80410377716208_3_alg».proof.Proof.Gen.Kernel
import proofs.«411001_j80410377716208_3_alg».proof.Proof.Gen.Kernel.Frame
import proofs.«411001_j80410377716208_3_alg».proof.Proof.Gen.KernelIdeal
import proofs.«411001_j80410377716208_3_alg».proof.Proof.Gen.KernelIdeal.Frame
import proofs.«411001_j80410377716208_3_alg».proof.Proof.Gen.ReferenceIdeal
import proofs.«411001_j80410377716208_3_alg».proof.Proof.Gen.Pre_finite_inputs
import proofs.«411001_j80410377716208_3_alg».proof.Proof.Gen.ReferenceIdeal.Run
import proofs.«411001_j80410377716208_3_alg».proof.Proof.Gen.ReferenceIdeal.Read
import proofs.«411001_j80410377716208_3_alg».proof.Proof.KFinal
import proofs.«411001_j80410377716208_3_alg».proof.Proof.RFinal
import proofs.«411001_j80410377716208_3_alg».proof.Proof.RefRead
import proofs.«411001_j80410377716208_3_alg».proof.Proof.LogsFinite
import proofs.«411001_j80410377716208_3_alg».proof.Proof.PreFacts
import proofs.«411001_j80410377716208_3_alg».proof.Proof.Algebra
import Idealize.ShloMosaic.Adequacy
import Idealize.ShloMosaic.Init

noncomputable section

namespace Cert.Proof

open Idealize.ShloMosaic Idealize.SL.Sem Cert.Names

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two losses of the specification, which agree under the precondition: the kernel's run
    as read off its frame, the reference's run brought to the same form; the precondition's facts are carried from the
    kernel's memory to the reference's through the agreement of the arguments. -/
theorem algebraic : Cert.algebraic_KernelIdeal_ReferenceIdeal := by
  intro m ρ m' ρ' hpre hagree
  have hp := fun c => Cert.PreFacts.pre_facts _ _ _ _ _ _ (hpre c)
  have hx : ∀ (c : Dev Cert.ReferenceIdeal.nD) j, ∃ r : ℝ,
      m' ((c.tc : Thread Cert.ReferenceIdeal.nD Cert.ReferenceIdeal.τ).loc Cert.ReferenceIdeal.main_arg0) j = (r : EReal) :=
    fun c j => by rw [(hagree c).1]; exact (hp c).1 j
  have h3 : ∀ (c : Dev Cert.ReferenceIdeal.nD) j, ∃ r : ℝ,
      m' ((c.tc : Thread Cert.ReferenceIdeal.nD Cert.ReferenceIdeal.τ).loc Cert.ReferenceIdeal.main_arg3) j = (r : EReal) :=
    fun c j => by rw [(hagree c).2.2.2.1]; exact (hp c).2.2.1 j
  have h5 : ∀ (c : Dev Cert.ReferenceIdeal.nD) j, ∃ r : ℝ,
      m' ((c.tc : Thread Cert.ReferenceIdeal.nD Cert.ReferenceIdeal.τ).loc Cert.ReferenceIdeal.main_arg5) j = (r : EReal) :=
    fun c j => by rw [(hagree c).2.2.2.2.2]; exact (hp c).2.2.2.2.1 j
  have hlen : ∀ (c : Dev Cert.ReferenceIdeal.nD) (p : Fin 128),
      (m' ((c.tc : Thread Cert.ReferenceIdeal.nD Cert.ReferenceIdeal.τ).loc Cert.ReferenceIdeal.main_arg1)
        (Idealize.ShloMosaic.ValueIdx.ix1 p)).toInt ≤ 512 :=
    fun c p => by rw [(hagree c).2.1]; exact (hp c).2.2.2.2.2 p
  refine ⟨_, _, Cert.KernelIdeal.KFinal.run m ρ, ?_⟩
  refine (θ_run Cert.ReferenceIdeal.defs _ _).mono (fun _ h c => ?_) (Cert.RFinal.run m' ρ' hx h3 h5 hlen)
  obtain ⟨e0, e1, e2, e3, e4, e5⟩ := hagree c
  rw [← e0, ← e1, ← e2, ← e3, ← e4, ← e5]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
